-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x512 .f32) (main_arg1 : FVec F S100000x512 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 100000#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x512 : Shape := ⟨2, ![1024, 512]⟩
abbrev S100000x512 : Shape := ⟨2, ![100000, 512]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024 : Shape := ⟨2, ![1, 1024]⟩
abbrev S2x1x1 : Shape := ⟨3, ![2, 1, 1]⟩
abbrev S2000x512 : Shape := ⟨2, ![2000, 512]⟩
abbrev S1x1x1 : Shape := ⟨3, ![1, 1, 1]⟩
abbrev S2000 : Shape := ⟨1, ![2000]⟩
abbrev S2000x1 : Shape := ⟨2, ![2000, 1]⟩
abbrev S2000x1024 : Shape := ⟨2, ![2000, 1024]⟩

abbrev nBuf : Space → Nat
  | .hbm => 58
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1x1, .i32⟩
  | .hbm, ⟨27, _⟩ => ⟨S1024x1, .i32⟩
  | .hbm, ⟨28, _⟩ => ⟨S1024x1, .i1⟩
  | .hbm, ⟨29, _⟩ => ⟨S1024x1, .i1⟩
  | .hbm, ⟨30, _⟩ => ⟨S_, .i1⟩
  | .hbm, ⟨31, _⟩ => ⟨S1024, .i1⟩
  | .hbm, ⟨32, _⟩ => ⟨S1024x512, .f32⟩
  | .hbm, ⟨33, _⟩ => ⟨S1024x512, .i1⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1024x512, .bf16⟩
  | .local _ .vmem, ⟨1, _⟩ => ⟨S2000x512, .f32⟩
  | .local _ .vmem, ⟨2, _⟩ => ⟨S2000x512, .f32⟩
  | .local _ .vmem, ⟨3, _⟩ => ⟨S1x1024, .f32⟩
  | .local _ .vmem, ⟨4, _⟩ => ⟨S1x1x1, .f32⟩
  | .local _ .vmem, ⟨5, _⟩ => ⟨S1x1x1, .f32⟩
  | .local _ .vmem, ⟨6, _⟩ => ⟨S1x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_cst_6 : Ref sig .tc := ⟨.hbm, 56, rfl⟩
abbrev main_v24 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v31 : BitVec 1 := Scalar.cmpi .eq arg1 c24_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  bcast_S_S1024 : S_.BroadcastsInDim S1024 (![] : Fin 0 → Fin S1024.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  bcast_S_S1024x512 : S_.BroadcastsInDim S1024x512 (![] : Fin 0 → Fin S1024x512.rank)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x1024_S2000x1024 : S1x1024.Broadcasts S2000x1024
  reduces_S2000x1024_S1024 : S2000x1024.Reduces [0] S1024
  reduces_S1x1024_S1 : S1x1024.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  gather_S100000x512_S1024x1_S1024x512_1_0_n_n_0_1_1512_wf : GatherDims.WF S100000x512 S1024x1 S1024x512 [1] [0] [] [0] [] 1 ![1, 512]
  dot_S2000x512_S1024x512_S2000x1024_1_1_0_0_n_n_wf : DotDims.WF S2000x512 S1024x512 S2000x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S2000x512_S1024x512_S2000x1024_1_1_0_0_n_n : DotDims S2000x512 S1024x512 S2000x1024 where
  lhsContracting := [1]
  rhsContracting := [1]
  lhsNonContracting := [0]
  rhsNonContracting := [0]
  lhsBatch := []
  rhsBatch := []
  wf := dot_S2000x512_S1024x512_S2000x1024_1_1_0_0_n_n_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S100000x512 : Shape := ⟨2, ![100000, 512]⟩
abbrev S1024 : Shape := ⟨1, ![1024]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S1024x100000 : Shape := ⟨2, ![1024, 100000]⟩
abbrev S1024x2 : Shape := ⟨2, ![1024, 2]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S1024x100000, .f32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S1024x100000, .f32⟩
  | .hbm, ⟨48, _⟩ => ⟨S1024x100000, .f32⟩
  | .hbm, ⟨49, _⟩ => ⟨S_, .f32⟩
  | .hbm, ⟨50, _⟩ => ⟨S1024x100000, .f32⟩
  | .hbm, ⟨51, _⟩ => ⟨S1024x100000, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S1024 : S_.BroadcastsInDim S1024 (![] : Fin 0 → Fin S1024.rank)
  concatenates_S1024x1_S1024x1_S1024x2_d1 : Shape.Concatenates [S1024x1, S1024x1] S1024x2 1
  bcast_S1024x1_S1024x100000_0_1 : S1024x1.BroadcastsInDim S1024x100000 (![0, 1] : Fin 2 → Fin S1024x100000.rank)
  bcast_S_S1024x100000 : S_.BroadcastsInDim S1024x100000 (![] : Fin 0 → Fin S1024x100000.rank)
  reducesTo_S1024x100000_S1024_d1 : S1024x100000.ReducesTo [1] S1024
  reducesTo_S1024_S_d0 : S1024.ReducesTo [0] S_
  dot_S1024x512_S100000x512_S1024x100000_1_1_0_0_n_n_wf : DotDims.WF S1024x512 S100000x512 S1024x100000 [1] [1] [0] [0] [] []
  gather_S1024x100000_S1024x2_S1024_n_01_n_n_01_1_11_wf : GatherDims.WF S1024x100000 S1024x2 S1024 [] [0, 1] [] [0, 1] [] 1 ![1, 1]

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

class Facts : Prop extends Facts₀ where

variable [Facts]
-- ==== Proof.Spec.lean ====
/-
  The two loss formulas this certificate joins, over the extended reals.

  With X the 1024 input rows, C the 100000 class rows (both of width 512) and t b the target class of row b:
  a row is normalised by dividing it by max(sqrt(sum of its squares), eps); cosine b c is the inner product of
  normalised input row b with normalised class row c; the hinge of a score s against the target's score is
  max 0 ((margin - target score) + s). The reference sums the hinge over all classes, takes the margin off once
  per sample, and averages over the samples. The kernel normalises a class row by multiplying with
  rsqrt(max(sum of squares, kappa)), walks the classes in 2 x 25 blocks of 2000 rows, sums the hinge over a block's
  rows, then over the 25 blocks of a half, then over the samples, then over the two halves, takes 1024 margins off at
  once and divides by 1024.
-/
import Idealize.ShloMosaic.PureOps.Ideal
import Idealize.ShloMosaic.Lib.ValueIdx

noncomputable section

namespace Cert.Margin

open Idealize.ShloMosaic

/-- The clamp under a row's norm: the binary32 word nearest 1e-8. -/
def epsW : EReal := Ideal.ofBits .f32 0x322BCC77#32
/-- The margin: the binary32 word nearest 0.1. -/
def marginW : EReal := Ideal.ofBits .f32 0x3DCCCCCD#32
/-- The number of samples, 1024, as its binary32 word. -/
def countW : EReal := Ideal.ofBits .f32 0x44800000#32
/-- 1024 margins taken off at once: the binary32 word nearest 102.4. -/
def marginsW : EReal := Ideal.ofBits .f32 0x42CCCCCD#32
/-- The square of the clamp, as the exact rational (11258999 / 2^50)^2. -/
def epsSqV : EReal := ((126765058482001 / 1267650600228229401496703205376 : ℝ) : EReal)

/-- The sum of the squares of row r. -/
def sumsq {n : Nat} (A : Fin n → Fin 512 → EReal) (r : Fin n) : EReal := ∑ k : Fin 512, A r k * A r k

/-- Row r divided by its clamped norm, at column d. -/
def normed {n : Nat} (A : Fin n → Fin 512 → EReal) (r : Fin n) (d : Fin 512) : EReal :=
  Ideal.div (A r d) (max (Ideal.sqrt (sumsq A r)) epsW)

/-- Row r times the reciprocal square root of its clamped sum of squares, at column d. -/
def normedK (κ : EReal) {n : Nat} (A : Fin n → Fin 512 → EReal) (r : Fin n) (d : Fin 512) : EReal :=
  A r d * Ideal.rsqrt (max (sumsq A r) κ)

/-- The cosine of input row b and class row c. -/
def cosine (X : Fin 1024 → Fin 512 → EReal) (C : Fin 100000 → Fin 512 → EReal) (b : Fin 1024) (c : Fin 100000) : EReal :=
  ∑ d : Fin 512, normed X b d * normed C c d

/-- The margin hinge of a score s against the target's score tc. -/
def hinge (tc s : EReal) : EReal := max 0 ((marginW - tc) + s)

/-- Row r of block i of half p is class (25 p + i) 2000 + r. -/
def cls (p : Fin 2) (i : Fin 25) (r : Fin 2000) : Fin 100000 :=
  ⟨(25 * p.val + i.val) * 2000 + r.val, by have := p.isLt; have := i.isLt; have := r.isLt; omega⟩

/-- The reference's loss. -/
def refLoss (X : Fin 1024 → Fin 512 → EReal) (C : Fin 100000 → Fin 512 → EReal) (t : Fin 1024 → Fin 100000) : EReal :=
  Ideal.div (∑ b : Fin 1024, ((∑ c : Fin 100000, hinge (cosine X C b (t b)) (cosine X C b c)) - marginW)) countW

/-- The kernel's loss, with kappa the clamp under the class rows' sums of squares. -/
def kerLoss (κ : EReal) (X : Fin 1024 → Fin 512 → EReal) (C : Fin 100000 → Fin 512 → EReal) (t : Fin 1024 → Fin 100000) : EReal :=
  Ideal.div ((∑ p : Fin 2, ∑ b : Fin 1024, ∑ i : Fin 25, ∑ r : Fin 2000,
      hinge (cosine X C b (t b)) (∑ d : Fin 512, normedK κ C (cls p i r) d * normed X b d)) - marginsW) countW

/-- The target of sample b as a class: the word's value (reduced into range, which changes nothing for a word in range). -/
def tgt (T : (⟨1, ![1024]⟩ : Shape).Idx → BitVec 32) (b : Fin 1024) : Fin 100000 :=
  ⟨(T (ValueIdx.ix1 b)).toNat % 100000, Nat.mod_lt _ (by norm_num)⟩

/-- Every target word names a class: 0 ≤ T b < 100000 (read unsigned, which below 2^31 is the signed reading). -/
def InRange (T : (⟨1, ![1024]⟩ : Shape).Idx → BitVec 32) : Prop := ∀ b : Fin 1024, (T (ValueIdx.ix1 b)).toNat < 100000

/-- A float array of two axes as a function of its two coordinates. -/
def rows {n k : Nat} (A : (⟨2, ![n, k]⟩ : Shape).Idx → EReal) (r : Fin n) (d : Fin k) : EReal := A (ValueIdx.ix2 r d)

end Cert.Margin

end
-- ==== Proof.Algebra.lean ====
/-
  The algebra that joins the two loss formulas of Spec.lean, over the extended reals.

  Three facts carry it. First, the constant words: the clamp is 11258999 / 2^50, the margin 13421773 / 2^27,
  and 1024 margins are 13421773 / 2^17. Second, for a positive real e, multiplying by the reciprocal square
  root of max(s, e^2) is dividing by max(sqrt s, e), at every extended real s: the square root is monotone,
  so it commutes with max, and the clamp keeps both sides away from a zero divisor. Third, the classes
  0 .. 99999 are exactly the rows (p, i, r) of the 2 x 25 blocks of 2000 rows, each once, so the kernel's
  four nested sums are the reference's two, and taking the margin off once per sample is taking 1024 margins
  off the total.
-/
import proofs.«427285_j83846351552676_3_alg».proof.Proof.Spec
import Mathlib.Analysis.Real.Sqrt
import Mathlib.Data.EReal.Basic
import Mathlib.Data.EReal.Operations
import Mathlib.Data.EReal.Inv
import Mathlib.Data.Fintype.BigOperators
import Mathlib.Algebra.BigOperators.Fin

noncomputable section

namespace Cert.Margin

open Idealize.ShloMosaic

/-! ### The constant words -/

theorem epsW_eq : epsW = ((11258999 / 2 ^ 50 : ℝ) : EReal) := by
  simp [epsW, Ideal.ofBits, Ideal.ieee, -EReal.coe_mul]; norm_num

theorem marginW_eq : marginW = ((13421773 / 2 ^ 27 : ℝ) : EReal) := by
  simp [marginW, Ideal.ofBits, Ideal.ieee, -EReal.coe_mul]; norm_num

theorem marginsW_eq : marginsW = ((13421773 / 2 ^ 17 : ℝ) : EReal) := by
  simp [marginsW, Ideal.ofBits, Ideal.ieee, -EReal.coe_mul]; norm_num

/-- The clamp under the sums of squares is the square of the clamp under the norms. -/
theorem epsSqV_eq : epsSqV = (((11258999 / 2 ^ 50) * (11258999 / 2 ^ 50) : ℝ) : EReal) := by
  unfold epsSqV
  congr 1
  norm_num

/-! ### Reciprocal square root of a clamped square against division by a clamped root -/

/-- For e > 0: x * rsqrt (max s (e * e)) = x / max (sqrt s) e, at every extended real s and x. -/
theorem mul_rsqrt_max_eq_div {e : ℝ} (he : 0 < e) (x s : EReal) :
    x * Ideal.rsqrt (max s ((e * e : ℝ) : EReal)) = Ideal.div x (max (Ideal.sqrt s) (e : EReal)) := by
  have hee : 0 < e * e := mul_pos he he
  have hsq : Real.sqrt (e * e) = e := Real.sqrt_mul_self he.le
  -- dividing by a real at least e is multiplying by its reciprocal
  have key : ∀ m : ℝ, e ≤ m → Ideal.div x (m : EReal) = x * ((m⁻¹ : ℝ) : EReal) := by
    intro m hm
    have hm0 : m ≠ 0 := (lt_of_lt_of_le he hm).ne'
    rw [Ideal.div, if_neg (EReal.coe_ne_zero.2 hm0), EReal.coe_inv]
  induction s using EReal.rec with
  | bot =>
    rw [max_eq_right bot_le, Ideal.sqrt_bot, max_eq_right bot_le, Ideal.rsqrt_coe,
      if_neg (not_lt.2 hee.le), if_neg hee.ne', hsq, key e le_rfl]
  | coe r =>
    rw [← EReal.coe_strictMono.monotone.map_max]
    have hm : 0 < max r (e * e) := lt_max_of_lt_right hee
    rw [Ideal.rsqrt_coe, if_neg (not_lt.2 hm.le), if_neg hm.ne', Real.sqrt_monotone.map_max, hsq,
      Ideal.sqrt_coe]
    by_cases hr : r < 0
    · rw [if_pos hr, max_eq_right bot_le, Real.sqrt_eq_zero_of_nonpos hr.le, max_eq_right he.le,
        key e le_rfl]
    · rw [if_neg hr, ← EReal.coe_strictMono.monotone.map_max, key _ (le_max_right _ _)]
  | top =>
    rw [max_eq_left le_top, Ideal.rsqrt_top, mul_zero, Ideal.sqrt_top, max_eq_left le_top, Ideal.div,
      if_neg EReal.top_ne_zero, EReal.inv_top, mul_zero]

/-- The kernel's way of normalising a row is the reference's. -/
theorem normedK_eq_normed {n : Nat} (A : Fin n → Fin 512 → EReal) (r : Fin n) (d : Fin 512) :
    normedK epsSqV A r d = normed A r d := by
  unfold normedK normed
  rw [epsSqV_eq, epsW_eq]
  exact mul_rsqrt_max_eq_div (by norm_num) _ _

/-! ### The classes as rows of blocks -/

/-- (p, i, r) ↦ class (25 p + i) 2000 + r is a bijection onto the 100000 classes. -/
def clsEquiv : Fin 2 × Fin 25 × Fin 2000 ≃ Fin 100000 where
  toFun x := cls x.1 x.2.1 x.2.2
  invFun c :=
    (⟨c.val / 50000, by have := c.isLt; omega⟩, ⟨c.val / 2000 % 25, by omega⟩, ⟨c.val % 2000, by omega⟩)
  left_inv := by
    rintro ⟨p, i, r⟩
    have := p.isLt; have := i.isLt; have := r.isLt
    refine Prod.ext (Fin.ext ?_) (Prod.ext (Fin.ext ?_) (Fin.ext ?_)) <;> simp only [cls] <;> omega
  right_inv := by
    intro c
    have := c.isLt
    refine Fin.ext ?_
    simp only [cls]
    omega

/-- A sum over the blocks' rows is the sum over the classes. -/
theorem sum_cls {M : Type*} [AddCommMonoid M] (f : Fin 100000 → M) :
    ∑ p : Fin 2, ∑ i : Fin 25, ∑ r : Fin 2000, f (cls p i r) = ∑ c : Fin 100000, f c := by
  rw [← Fintype.sum_equiv clsEquiv (fun x => f (cls x.1 x.2.1 x.2.2)) f (fun _ => rfl),
    Fintype.sum_prod_type]
  refine Finset.sum_congr rfl fun p _ => ?_
  rw [Fintype.sum_prod_type]

/-! ### The margins -/

/-- Taking the margin off each of the 1024 samples is taking 1024 margins off the total. -/
theorem sum_sub_marginW (S : Fin 1024 → EReal) :
    ∑ b : Fin 1024, (S b - marginW) = (∑ b : Fin 1024, S b) - marginsW := by
  simp only [sub_eq_add_neg]
  rw [Finset.sum_add_distrib, Fin.sum_const, marginW_eq, marginsW_eq, ← EReal.coe_neg, ← EReal.coe_neg,
    ← EReal.coe_nsmul]
  congr 2
  norm_num

/-! ### The two losses -/

/-- The kernel's inner product over a class row is the cosine. -/
theorem inner_eq_cosine (X : Fin 1024 → Fin 512 → EReal) (C : Fin 100000 → Fin 512 → EReal)
    (b : Fin 1024) (c : Fin 100000) :
    ∑ d : Fin 512, normedK epsSqV C c d * normed X b d = cosine X C b c := by
  unfold cosine
  refine Finset.sum_congr rfl fun d _ => ?_
  rw [normedK_eq_normed, mul_comm]

/-- The kernel's loss, with the square of the clamp under the class rows' sums of squares, is the reference's. -/
theorem kerLoss_eq_refLoss (X : Fin 1024 → Fin 512 → EReal) (C : Fin 100000 → Fin 512 → EReal)
    (t : Fin 1024 → Fin 100000) : kerLoss epsSqV X C t = refLoss X C t := by
  have h : (∑ p : Fin 2, ∑ b : Fin 1024, ∑ i : Fin 25, ∑ r : Fin 2000,
        hinge (cosine X C b (t b)) (∑ d : Fin 512, normedK epsSqV C (cls p i r) d * normed X b d))
      = ∑ b : Fin 1024, ∑ c : Fin 100000, hinge (cosine X C b (t b)) (cosine X C b c) := by
    simp only [inner_eq_cosine]
    rw [Finset.sum_comm]
    refine Finset.sum_congr rfl fun b _ => ?_
    exact sum_cls (fun c => hinge (cosine X C b (t b)) (cosine X C b c))
  unfold kerLoss refLoss
  rw [sum_sub_marginW, h]

end Cert.Margin

end
-- ==== Proof.PreRange.lean ====
/-
  The index range, read out of the printed precondition.

  The precondition is a conjunction of three scalars, each an "all" over one input: the two float inputs are finite
  everywhere, and every word t of the 1024 target words satisfies (t >= 0) and (t < 100000), both compared signed.
  An "all" prints as a reduction by "and" from the constant 1 into a result of one index; when that result is 1, every
  element reduced is 1. So at each position b both comparison bits of the word T b are 1: 0 <= T b says the word's top
  bit is clear, whence its signed and unsigned readings agree; T b < 100000, signed, is then the same inequality between
  natural numbers, 100000 being below 2^31.
-/
import proofs.«427285_j83846351552676_3_alg».proof.Pre_finite_inputs
import proofs.«427285_j83846351552676_3_alg».proof.Proof.Spec
import Idealize.ShloMosaic.Lib.ReduceAll
import Idealize.ShloMosaic.Lib.ValueIdx

namespace Cert.Margin

open Idealize.ShloMosaic

namespace PreRange

/-- A 32-bit word w with 0 <= w < n, both read signed, and n below 2^31, has unsigned value below n:
    0 <= w signed means 2 * w.toNat < 2^32, so w reads the same signed and unsigned, and so does the literal n. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt] at h1
  have hw : w.toInt = w.toNat := BitVec.toInt_eq_toNat_of_lt (by omega)
  have hk : (BitVec.ofNat 32 n).toNat = n := by rw [BitVec.toNat_ofNat]; omega
  have hn' : (BitVec.ofNat 32 n).toInt = n := by rw [BitVec.toInt_eq_toNat_of_lt (by omega), hk]
  rw [hw, hn'] at h1
  exact_mod_cast h1

end PreRange

/-- Under the printed precondition every target word names a class: its unsigned value is below 100000.
    The precondition's value at the scalar's one index is (finite X and finite C) and (all b, 0 <= T b and T b < 100000);
    the last conjunct is a reduction by "and" that came out 1, so each element of the reduced array is 1, and the element
    at b is the "and" of the two signed comparisons of T b against the broadcast constants 0 and 100000. -/
theorem inRange_of_pre {F : FTy → Type} [FloatOps F] [Cert.Pre_finite_inputs.Facts]
    (a0 : FVec F Cert.Pre_finite_inputs.S1024x512 .f32) (a1 : FVec F Cert.Pre_finite_inputs.S100000x512 .f32)
    (T : IVec Cert.Pre_finite_inputs.S1024 32)
    (h : Cert.Pre_finite_inputs.fn (F := F) a0 a1 T = fun _ => 1#1) : Cert.Margin.InRange T := by
  intro b
  -- the scalar shape has one index
  haveI : Subsingleton Cert.Pre_finite_inputs.S_.Idx := ⟨fun a b => funext fun d => d.elim0⟩
  have e := congrFun h ValueIdx.ix0
  dsimp only [Cert.Pre_finite_inputs.fn] at e
  -- the outer "and": keep its second operand, the "all" over the target words
  have e14 : Host.reduce IntOp.andi _ _ _ _ ValueIdx.ix0 = 1#1 := (IntOp.andi_eq_one.1 e).2
  -- an "all" that is 1 had a 1 at every position
  have e13 := Host.reduce_andi_all _ _ _ _ _ e14 (ValueIdx.ix1 b)
  -- at position b: (T b >= 0) and (T b < 100000), signed
  obtain ⟨hge, hlt⟩ := IntOp.andi_eq_one.1 e13
  exact PreRange.toNat_lt_of_signed _ 100000 (by norm_num) hge hlt

end Cert.Margin
-- ==== Proof.RefSide.lean ====
/-
  The reference's run read back as the loss formula.

  The reference normalises each input row and each class row by dividing it by max(sqrt(sum of its squares), eps); its
  scores are the inner products of a normalised input row with a normalised class row, that is the cosines. The target
  score of sample b is read by a point gather at the pair (b', t'), where b' is the position b wrapped at 1024 and t' the
  target word wrapped at 100000: a position is never negative, and a target in range is not negative either, so neither
  wrap moves anything; the gather clamps each component into its axis, which for b < 1024 and a target below 100000
  changes nothing. So the target score is the cosine of row b with its target's class row. The margin term at (b, c) is
  max 0 ((margin - target score) + score); a float sum is its initial value, the zero word, plus the sum; the rows are
  summed over the classes, one margin is taken off each, the samples are summed and the total is divided by the word 1024.
-/
import proofs.«427285_j83846351552676_3_alg».proof.Proof.Gen.ReferenceIdeal.Read
import proofs.«427285_j83846351552676_3_alg».proof.Proof.Spec
import Idealize.ShloMosaic.Lib.StableHlo.Predicate
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.ValueIdx Cert.Margin
open scoped BigOperators

/-- The point gather at sample b: both operand axes are collapsed and start-indexed, so the result at b is the operand at
    the two start-index components of row b, each read signed and clamped into its axis. -/
theorem gather_point {α : Type} (x : S1024x100000.Idx → α) (idx : IVec S1024x2 32) (b : Fin 1024) :
    Host.gather gather_S1024x100000_S1024x2_S1024_n_01_n_n_01_1_11 x idx (ix1 b)
      = x (ix2 (⟨min (idx (ix2 b (0 : Fin 2))).toInt.toNat 1023, by omega⟩ : Fin 1024)
               (⟨min (idx (ix2 b (1 : Fin 2))).toInt.toNat 99999, by omega⟩ : Fin 100000)) := by
  unfold Host.gather
  congr 1
  funext a
  refine Fin.ext ?_
  match a with
  | ⟨0, _⟩ =>
    show gather_S1024x100000_S1024x2_S1024_n_01_n_n_01_1_11.start (ix1 b) idx 0
        + gather_S1024x100000_S1024x2_S1024_n_01_n_n_01_1_11.batchCoord (ix1 b) 0
        + gather_S1024x100000_S1024x2_S1024_n_01_n_n_01_1_11.offCoord (ix1 b) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S1024x100000_S1024x2_S1024_n_01_n_n_01_1_11.startIndexMap from List.mem_cons_self ..)]
    have hsi : gather_S1024x100000_S1024x2_S1024_n_01_n_n_01_1_11.siIdx (ix1 b)
        ⟨List.idxOf (0 : Fin 2) gather_S1024x100000_S1024x2_S1024_n_01_n_n_01_1_11.startIndexMap,
          List.idxOf_lt_length_iff.2 (List.mem_cons_self ..)⟩ = ix2 b (0 : Fin 2) := by
      funext c; refine Fin.ext ?_
      match c with
      | ⟨0, _⟩ => rfl
      | ⟨1, _⟩ => rfl
    rw [hsi]
    rfl
  | ⟨1, _⟩ =>
    show gather_S1024x100000_S1024x2_S1024_n_01_n_n_01_1_11.start (ix1 b) idx 1
        + gather_S1024x100000_S1024x2_S1024_n_01_n_n_01_1_11.batchCoord (ix1 b) 1
        + gather_S1024x100000_S1024x2_S1024_n_01_n_n_01_1_11.offCoord (ix1 b) 1 = _
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 2) ∈ gather_S1024x100000_S1024x2_S1024_n_01_n_n_01_1_11.startIndexMap from
      List.mem_cons_of_mem _ (List.mem_cons_self ..))]
    have hsi : gather_S1024x100000_S1024x2_S1024_n_01_n_n_01_1_11.siIdx (ix1 b)
        ⟨List.idxOf (1 : Fin 2) gather_S1024x100000_S1024x2_S1024_n_01_n_n_01_1_11.startIndexMap,
          List.idxOf_lt_length_iff.2 (List.mem_cons_of_mem _ (List.mem_cons_self ..))⟩ = ix2 b (1 : Fin 2) := by
      funext c; refine Fin.ext ?_
      match c with
      | ⟨0, _⟩ => rfl
      | ⟨1, _⟩ => rfl
    rw [hsi]
    rfl

/-- A 32-bit word that reads below 2^31 unsigned is not below zero signed. -/
theorem slt_zero_of_small {a : BitVec 32} (ha : a.toNat < 2 ^ 31) : IntOp.cmpi .slt a 0#32 = 0#1 :=
  eq_zero_of_ne_one fun h =>
    absurd ((StableHlo.Predicate.slt_iff_toNat ha (by decide)).mp h) (Nat.not_lt_zero _)

/-- Column 0 of row b of the start indices: the iota wrapped at 1024, which at a non-negative position is the position. -/
theorem startIdx_col0 (T : S1024.Idx → BitVec 32) (b : Fin 1024) :
    val_main_v30 (F := Ideal) T (ix2 b (0 : Fin 2)) = BitVec.ofNat 32 b.val := by
  unfold val_main_v30
  rw [concatenate_pair_apply_left (1 : Fin S1024x2.rank) _ _ concatenates_S1024x1_S1024x1_S1024x2_d1 (ix2 b (0 : Fin 2)) rfl
    (ix2 b (0 : Fin 1)) (fun c => by match c with | ⟨0, _⟩ => rfl | ⟨1, _⟩ => rfl)]
  rw [val_main_v28_apply,
    show idx_main_v28 (ix2 b (0 : Fin 1)) = ix1 b from funext fun a => by match a with | ⟨0, _⟩ => rfl,
    val_main_v22_apply, val_main_v19_apply, val_main_v17_apply, val_main_v18_apply, val_main_c_apply]
  show Scalar.select (IntOp.cmpi .slt (BitVec.ofNat 32 b.val) 0#32) _ _ = _
  rw [slt_zero_of_small (by have := b.isLt; simp only [BitVec.toNat_ofNat]; omega), select_zero]

/-- Column 1 of row b of the start indices: the target wrapped at 100000, which for a target in range is the target. -/
theorem startIdx_col1 (T : S1024.Idx → BitVec 32) (hT : InRange T) (b : Fin 1024) :
    val_main_v30 (F := Ideal) T (ix2 b (1 : Fin 2)) = T (ix1 b) := by
  unfold val_main_v30
  rw [concatenate_pair_apply_right (1 : Fin S1024x2.rank) _ _ concatenates_S1024x1_S1024x1_S1024x2_d1 (ix2 b (1 : Fin 2)) rfl rfl
    (ix2 b (0 : Fin 1)) (fun c hc => by match c with | ⟨0, _⟩ => rfl | ⟨1, _⟩ => exact absurd rfl hc) rfl]
  rw [val_main_v29_apply,
    show idx_main_v29 (ix2 b (0 : Fin 1)) = ix1 b from funext fun a => by match a with | ⟨0, _⟩ => rfl,
    val_main_v27_apply, val_main_v24_apply, val_main_v23_apply, val_main_c_4_apply]
  rw [slt_zero_of_small (by have := hT b; omega), select_zero]

section Arrays
variable (X : S1024x512.Idx → EReal) (C : S100000x512.Idx → EReal) (T : S1024.Idx → BitVec 32)

/-- The gathered score of sample b is the score of b against its target class. -/
theorem target_score (hT : InRange T) (b : Fin 1024) :
    val_main_v31 (F := Ideal) X C T (ix1 b) = val_main_v16 (F := Ideal) X C (ix2 b (tgt T b)) := by
  unfold val_main_v31
  rw [gather_point]
  refine congrArg (val_main_v16 (F := Ideal) X C) (funext fun a => Fin.ext ?_)
  match a with
  | ⟨0, _⟩ =>
    show min (val_main_v30 (F := Ideal) T (ix2 b (0 : Fin 2))).toInt.toNat 1023 = b.val
    rw [startIdx_col0, StableHlo.Predicate.toInt_ofNat_small _ (by have := b.isLt; omega), Int.toNat_natCast]
    have := b.isLt; omega
  | ⟨1, _⟩ =>
    show min (val_main_v30 (F := Ideal) T (ix2 b (1 : Fin 2))).toInt.toNat 99999 = (T (ix1 b)).toNat % 100000
    have h := hT b
    rw [startIdx_col1 T hT, StableHlo.Predicate.toInt_eq_toNat_of_lt (by omega), Int.toNat_natCast, Nat.mod_eq_of_lt h]
    omega

/-- The sum of squares of input row b: the float sum from the zero word. -/
theorem sumsqX_eq (b : Fin 1024) : val_main_v1 (F := Ideal) X (ix1 b) = sumsq (rows X) b := by
  rw [val_main_v1_apply, val_main_cst_apply, Ideal.ofBits_def, Ideal.ofBits_zero_f32, zero_add]
  refine Finset.sum_congr rfl fun k _ => ?_
  rw [val_main_v0_apply, show idx_main_v1 (ix1 b) k = ix2 b k from
    funext fun a => by match a with | ⟨0, _⟩ => rfl | ⟨1, _⟩ => rfl]
  rfl

/-- Input row b divided by its clamped norm. -/
theorem normX_eq (b : Fin 1024) (d : Fin 512) : val_main_v7 (F := Ideal) X (ix2 b d) = normed (rows X) b d := by
  rw [val_main_v7_apply, val_main_v6_apply,
    show idx_main_v6 (ix2 b d) = ix2 b (0 : Fin 1) from funext fun a => by match a with | ⟨0, _⟩ => rfl | ⟨1, _⟩ => rfl,
    val_main_v5_apply, val_main_v3_apply, val_main_v2_apply,
    show idx_main_v2 (ix2 b (0 : Fin 1)) = ix1 b from funext fun a => by match a with | ⟨0, _⟩ => rfl,
    sumsqX_eq, val_main_v4_apply, val_main_cst_0_apply]
  rfl

/-- The sum of squares of class row c. -/
theorem sumsqC_eq (c : Fin 100000) : val_main_v9 (F := Ideal) C (ix1 c) = sumsq (rows C) c := by
  rw [val_main_v9_apply, val_main_cst_1_apply, Ideal.ofBits_def, Ideal.ofBits_zero_f32, zero_add]
  refine Finset.sum_congr rfl fun k _ => ?_
  rw [val_main_v8_apply, show idx_main_v9 (ix1 c) k = ix2 c k from
    funext fun a => by match a with | ⟨0, _⟩ => rfl | ⟨1, _⟩ => rfl]
  rfl

/-- Class row c divided by its clamped norm. -/
theorem normC_eq (c : Fin 100000) (d : Fin 512) : val_main_v15 (F := Ideal) C (ix2 c d) = normed (rows C) c d := by
  rw [val_main_v15_apply, val_main_v14_apply,
    show idx_main_v14 (ix2 c d) = ix2 c (0 : Fin 1) from funext fun a => by match a with | ⟨0, _⟩ => rfl | ⟨1, _⟩ => rfl,
    val_main_v13_apply, val_main_v11_apply, val_main_v10_apply,
    show idx_main_v10 (ix2 c (0 : Fin 1)) = ix1 c from funext fun a => by match a with | ⟨0, _⟩ => rfl,
    sumsqC_eq, val_main_v12_apply, val_main_cst_2_apply]
  rfl

/-- The score of sample b against class c is the cosine of the two rows. -/
theorem score_eq (b : Fin 1024) (c : Fin 100000) :
    val_main_v16 (F := Ideal) X C (ix2 b c) = cosine (rows X) (rows C) b c := by
  rw [val_main_v16_apply]
  unfold cosine
  refine Finset.sum_congr rfl fun k _ => ?_
  rw [show lidx_main_v16 (ix2 b c) k = ix2 b k from funext fun a => by match a with | ⟨0, _⟩ => rfl | ⟨1, _⟩ => rfl,
    show ridx_main_v16 (ix2 b c) k = ix2 c k from funext fun a => by match a with | ⟨0, _⟩ => rfl | ⟨1, _⟩ => rfl,
    normX_eq, normC_eq]

/-- The clamped margin term of sample b at class c. -/
theorem hinge_eq (hT : InRange T) (b : Fin 1024) (c : Fin 100000) :
    val_main_v38 (F := Ideal) X C T (ix2 b c)
      = hinge (cosine (rows X) (rows C) b (tgt T b)) (cosine (rows X) (rows C) b c) := by
  rw [val_main_v38_apply, val_main_v37_apply, val_main_cst_7_apply, val_main_v36_apply, val_main_v35_apply,
    show idx_main_v35 (ix2 b c) = ix2 b (0 : Fin 1) from funext fun a => by match a with | ⟨0, _⟩ => rfl | ⟨1, _⟩ => rfl,
    val_main_v34_apply, val_main_v33_apply, val_main_cst_6_apply, val_main_v32_apply,
    show idx_main_v32 (ix2 b (0 : Fin 1)) = ix1 b from funext fun a => by match a with | ⟨0, _⟩ => rfl,
    target_score X C T hT b, score_eq, score_eq]
  simp only [Ideal.ofBits_def, Ideal.ofBits_zero_f32]
  rfl

/-- Sample b's loss: the margin terms summed over the classes, less one margin. -/
theorem row_eq (hT : InRange T) (b : Fin 1024) :
    val_main_v41 (F := Ideal) X C T (ix1 b)
      = (∑ c : Fin 100000, hinge (cosine (rows X) (rows C) b (tgt T b)) (cosine (rows X) (rows C) b c)) - marginW := by
  rw [val_main_v41_apply, val_main_v39_apply, val_main_cst_8_apply, val_main_v40_apply, val_main_cst_9_apply,
    Ideal.ofBits_def, Ideal.ofBits_zero_f32, zero_add]
  refine congrArg (· - marginW) (Finset.sum_congr rfl fun k _ => ?_)
  rw [show idx_main_v39 (ix1 b) k = ix2 b k from funext fun a => by match a with | ⟨0, _⟩ => rfl | ⟨1, _⟩ => rfl,
    hinge_eq X C T hT b k]

/-- The reference's result is the reference loss of the three arrays. -/
theorem result_eq (hT : InRange T) :
    val_main_v43 (F := Ideal) X C T = fun _ => refLoss (rows X) (rows C) (tgt T) := by
  funext i
  rw [val_main_v43_apply, val_main_v42_apply, val_main_cst_10_apply, val_main_cst_11_apply,
    Ideal.ofBits_def, Ideal.ofBits_zero_f32, zero_add]
  unfold refLoss
  refine congrArg (fun s => Ideal.div s countW) ?_
  rw [← Equiv.sum_comp (idxEquiv1 (n := 1024)).symm]
  exact Finset.sum_congr rfl fun b _ => row_eq X C T hT b

end Arrays

section Run
open Idealize.ShloMosaic.TcCoe Idealize.SL.Sem Idealize.ShloMosaic.StableHlo

/-- On every device, from any memory with zero counters whose targets are in range: every weakly fair execution of the
    reference terminates with its result at the reference loss of the three argument arrays, the arguments unchanged. -/
theorem run_loss (m : (ℓ : Loc nD τ sig) → Buf (Elt Ideal) ℓ) (ρ : Dev nD → PrngReg)
    (hT : ∀ c : Dev nD, InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v43)
          = (fun _ => refLoss (rows (m ((c.tc : Thread nD τ).loc main_arg0))) (rows (m ((c.tc : Thread nD τ).loc main_arg1)))
              (tgt (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v43_eq _ _ _).trans (result_eq _ _ _ (hT c))), (h c).2⟩)
    (Value.run (F := Ideal) m ρ)

end Run

end Cert.ReferenceIdeal.RefValue
end
-- ==== Proof.Pieces.lean ====
/-
  What each control case of the kernel body leaves behind, as a pure term of what it loaded.

  The body keeps a running row of 1024 partial sums in a scratch row. At the first class block of a half it stores a
  zero row, reads it back and adds the block's hinge sums (case A); at a later block it adds the block's hinge sums to
  the row the block before left (case B); at the last block of a half it does the same and then stores the sum of the
  finished row's 1024 entries into the one-element output block (case C). Each lemma reads the stores the run found
  back through the whole-row (or whole-block) rectangle they were made through.
-/
import proofs.«427285_j83846351552676_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F] [Named F]

/-- The zero offset of a whole two-axis rectangle. -/
theorem hz2 : (![0, 0] : Fin 2 → Nat) = fun _ => 0 := by funext a; fin_cases a <;> rfl
/-- The zero offset of a whole three-axis rectangle. -/
theorem hz3 : (![0, 0, 0] : Fin 3 → Nat) = fun _ => 0 := by funext a; fin_cases a <;> rfl

theorem sout0_A_0_eq (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1x1024 .f32) (harg4 : arg4.IsWhole) (arg5 : Memref sig .tc .vmem S1x1x1 .f32) (harg5 : arg5.IsWhole) (arg6 : Memref sig .tc .vmem S1x1024 .f32) (harg6 : arg6.IsWhole) (hc0 : cond0_0 i) (hc1 : ¬cond0_1 i)
    (x0 : Vec F S1024x512 .bf16) (x1 : Vec F S2000x512 .f32) (x2 : Vec F S1x1024 .f32) :
    sout0_A_0 c i arg2 harg2 arg3 harg3 arg4 harg4 arg5 harg5 arg6 harg6 hc0 hc1 x0 x1 x2 = k0_pay2 x1 x0 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1024) hz2]
  simp only [View.readAt_eq_ld, harg2.read_unread, harg3.read_unread, harg4.read_unread, harg6.read_unread,
    View.ld_unit_zero (S := S2000x512) hz2, View.ld_unit_zero (S := S1024x512) hz2, View.ld_unit_zero (S := S1x1024) hz2,
    View.readCov_unit_zero (S := S1x1024) _ hz2]

theorem sout0_B_0_eq (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1x1024 .f32) (harg4 : arg4.IsWhole) (arg5 : Memref sig .tc .vmem S1x1x1 .f32) (harg5 : arg5.IsWhole) (arg6 : Memref sig .tc .vmem S1x1024 .f32) (harg6 : arg6.IsWhole) (hc0 : ¬cond0_0 i) (hc1 : ¬cond0_1 i)
    (x0 : Vec F S1024x512 .bf16) (x1 : Vec F S2000x512 .f32) (x2 : Vec F S1x1024 .f32) (xs0 : Vec F S1x1024 .f32) :
    sout0_B_0 c i arg2 harg2 arg3 harg3 arg4 harg4 arg5 harg5 arg6 harg6 hc0 hc1 x0 x1 x2 xs0 = k0_pay2 x1 x0 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1024) hz2]
  simp only [View.readAt_eq_ld, harg2.read_unread, harg3.read_unread, harg4.read_unread, harg6.read_unread,
    View.ld_unit_zero (S := S2000x512) hz2, View.ld_unit_zero (S := S1024x512) hz2, View.ld_unit_zero (S := S1x1024) hz2,
    View.readCov_unit_zero (S := S1x1024) _ hz2]

theorem sout0_C_0_eq (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1x1024 .f32) (harg4 : arg4.IsWhole) (arg5 : Memref sig .tc .vmem S1x1x1 .f32) (harg5 : arg5.IsWhole) (arg6 : Memref sig .tc .vmem S1x1024 .f32) (harg6 : arg6.IsWhole) (hc0 : ¬cond0_0 i) (hc1 : cond0_1 i)
    (x0 : Vec F S1024x512 .bf16) (x1 : Vec F S2000x512 .f32) (x2 : Vec F S1x1024 .f32) (xs0 : Vec F S1x1024 .f32) :
    sout0_C_0 c i arg2 harg2 arg3 harg3 arg4 harg4 arg5 harg5 arg6 harg6 hc0 hc1 x0 x1 x2 xs0 = k0_pay2 x1 x0 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1024) hz2]
  simp only [View.readAt_eq_ld, harg2.read_unread, harg3.read_unread, harg4.read_unread, harg6.read_unread,
    View.ld_unit_zero (S := S2000x512) hz2, View.ld_unit_zero (S := S1024x512) hz2, View.ld_unit_zero (S := S1x1024) hz2,
    View.readCov_unit_zero (S := S1x1024) _ hz2]

theorem out0_C_3_eq (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1x1024 .f32) (harg4 : arg4.IsWhole) (arg5 : Memref sig .tc .vmem S1x1x1 .f32) (harg5 : arg5.IsWhole) (arg6 : Memref sig .tc .vmem S1x1024 .f32) (harg6 : arg6.IsWhole) (hc0 : ¬cond0_0 i) (hc1 : cond0_1 i)
    (x0 : Vec F S1024x512 .bf16) (x1 : Vec F S2000x512 .f32) (x2 : Vec F S1x1024 .f32) (xs0 : Vec F S1x1024 .f32) :
    out0_C_3 c i arg2 harg2 arg3 harg3 arg4 harg4 arg5 harg5 arg6 harg6 hc0 hc1 x0 x1 x2 xs0 = k0_pay3 (k0_pay2 x1 x0 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1x1) hz3]
  simp only [View.readAt_eq_ld, harg2.read_unread, harg3.read_unread, harg4.read_unread, harg6.read_unread,
    View.ld_unit_zero (S := S2000x512) hz2, View.ld_unit_zero (S := S1024x512) hz2, View.ld_unit_zero (S := S1x1024) hz2,
    View.readCov_unit_zero (S := S1x1024) _ hz2]

end Cert.KernelIdeal.Gen

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.Payload.lean ====
/-
  The kernel body's three stored values read at an index, over the extended reals.

  For a class block v (2000 rows of width 512), the resident normalised inputs x (1024 rows of width 512), the row tc of
  1024 target cosines and the running row acc of 1024 partial sums:
    the zero row is 0 everywhere;
    the updated row at sample b is acc b plus the sum over the block's rows r of
      hinge (tc b) (sum over d of (v r d * rsqrt (max (sum over k of v r k * v r k) kappa)) * x b d);
    the finished row's total is the sum of its 1024 entries.
  A change of float format is the identity here, a lane sum is a finite sum, the matrix product into a zero
  accumulator is the sum of products over the contracted axis.
-/
import proofs.«427285_j83846351552676_3_alg».proof.Proof.Gen.KernelIdeal.Skeleton
import proofs.«427285_j83846351552676_3_alg».proof.Proof.Spec
import proofs.«427285_j83846351552676_3_alg».proof.Proof.LibColumn
import Idealize.ShloMosaic.PureOps.Ideal.Laws
import Idealize.ShloMosaic.PureOps.IdealRules
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- The clamp's name denotes the square of the reference's clamp word. -/
theorem eps_sq_named : Named.named (F := Ideal) κ "eps_sq" (φ := .f32) 0x24E69595#32 = Cert.Margin.epsSqV := by
  unfold Cert.Margin.epsSqV
  exact IdealRules.named_const.ideal_named_scalar _ _ _ _ rfl

/-! ## Sums along an axis -/

/-- The lane sum of a 2000 x 512 block along its rows. -/
theorem rowsum_apply (v : FVec Ideal S2000x512 .f32) (r : Fin 2000) :
    multiReduction .add [1] S2000 v 0x00000000#32 reduces_S2000x512_S2000 (.inl rfl) rfl (ix1 r) = ∑ k : Fin 512, v (ix2 r k) := by
  refine (Ideal.multiReduction_add_single v 0x00000000#32 reduces_S2000x512_S2000 (.inl rfl) rfl (ix1 r)).trans ?_
  exact Finset.sum_congr rfl fun k _ => congrArg v (funext fun a => Fin.ext (by match a with | ⟨0, _⟩ => rfl | ⟨1, _⟩ => rfl))

/-- The sum of a 2000 x 1024 block down its columns. -/
theorem colsum_apply (v : FVec Ideal S2000x1024 .f32) (b : Fin 1024) :
    multiReduction .add [0] S1024 v 0x00000000#32 reduces_S2000x1024_S1024 (.inl rfl) rfl (ix1 b) = ∑ r : Fin 2000, v (ix2 r b) := by
  refine (Ideal.multiReduction_add_single v 0x00000000#32 reduces_S2000x1024_S1024 (.inl rfl) rfl (ix1 b)).trans ?_
  exact Finset.sum_congr rfl fun k _ => congrArg v (funext fun a => Fin.ext (by match a with | ⟨0, _⟩ => rfl | ⟨1, _⟩ => rfl))

/-- The sum of a 1 x 1024 row. -/
theorem lanesum_apply (v : FVec Ideal S1x1024 .f32) (j : S1.Idx) :
    multiReduction .add [1] S1 v 0x00000000#32 reduces_S1x1024_S1 (.inl rfl) rfl j = ∑ b : Fin 1024, v (ix2 0 b) := by
  refine (Ideal.multiReduction_add_single v 0x00000000#32 reduces_S1x1024_S1 (.inl rfl) rfl j).trans ?_
  refine Finset.sum_congr rfl fun k _ => congrArg v (funext fun a => Fin.ext ?_)
  match a with
  | ⟨0, _⟩ => have hj : (j 0).val < 1 := (j 0).isLt; show (j 0).val = 0; omega
  | ⟨1, _⟩ => rfl

/-! ## The matrix product: class rows against input rows, contracted over the width -/

theorem lhs_dot_0 (i : S2000x1024.Idx) (q : dot_S2000x512_S1024x512_S2000x1024_1_1_0_0_n_n.contr.Idx) :
    (dot_S2000x512_S1024x512_S2000x1024_1_1_0_0_n_n.lhsIdx i q 0).val = (i 0).val := by
  unfold DotDims.lhsIdx
  rw [dif_neg (show ¬(0 : Fin S2000x512.rank) ∈ dot_S2000x512_S1024x512_S2000x1024_1_1_0_0_n_n.lhsBatch by decide), dif_pos (show (0 : Fin S2000x512.rank) ∈ dot_S2000x512_S1024x512_S2000x1024_1_1_0_0_n_n.lhsNonContracting by decide)]
  rfl
theorem lhs_dot_1 (i : S2000x1024.Idx) (q : dot_S2000x512_S1024x512_S2000x1024_1_1_0_0_n_n.contr.Idx) :
    (dot_S2000x512_S1024x512_S2000x1024_1_1_0_0_n_n.lhsIdx i q 1).val = (q ⟨0, by decide⟩).val :=
  dot_S2000x512_S1024x512_S2000x1024_1_1_0_0_n_n.lhsIdx_val_of_single rfl i q
theorem rhs_dot_0 (i : S2000x1024.Idx) (q : dot_S2000x512_S1024x512_S2000x1024_1_1_0_0_n_n.contr.Idx) :
    (dot_S2000x512_S1024x512_S2000x1024_1_1_0_0_n_n.rhsIdx i q 0).val = (i 1).val := by
  unfold DotDims.rhsIdx
  rw [dif_neg (show ¬(0 : Fin S1024x512.rank) ∈ dot_S2000x512_S1024x512_S2000x1024_1_1_0_0_n_n.rhsBatch by decide), dif_pos (show (0 : Fin S1024x512.rank) ∈ dot_S2000x512_S1024x512_S2000x1024_1_1_0_0_n_n.rhsNonContracting by decide)]
  rfl
theorem rhs_dot_1 (i : S2000x1024.Idx) (q : dot_S2000x512_S1024x512_S2000x1024_1_1_0_0_n_n.contr.Idx) :
    (dot_S2000x512_S1024x512_S2000x1024_1_1_0_0_n_n.rhsIdx i q 1).val = (q ⟨0, by decide⟩).val :=
  dot_S2000x512_S1024x512_S2000x1024_1_1_0_0_n_n.rhsIdx_val_of_single rfl i q

/-- Entry (r, b) of the product is the sum over the width of class entry (r, k) times input entry (b, k). -/
theorem scores_apply (l : FVec Ideal S2000x512 .bf16) (x : FVec Ideal S1024x512 .bf16) (r : Fin 2000) (b : Fin 1024) :
    matmul dot_S2000x512_S1024x512_S2000x1024_1_1_0_0_n_n none l x (constant S2000x1024 .f32 0x00000000#32) (ix2 r b)
      = ∑ k : Fin 512, l (ix2 r k) * x (ix2 b k) := by
  simp only [matmul]
  rw [Ideal.matmul_constant_zero_apply, ← Equiv.sum_comp (contrEquiv1 dot_S2000x512_S1024x512_S2000x1024_1_1_0_0_n_n 512 rfl rfl).symm]
  refine Finset.sum_congr rfl fun k _ => ?_
  have hk := contrEquiv1_symm_val dot_S2000x512_S1024x512_S2000x1024_1_1_0_0_n_n 512 rfl rfl k
  have el : dot_S2000x512_S1024x512_S2000x1024_1_1_0_0_n_n.lhsIdx (ix2 r b) ((contrEquiv1 dot_S2000x512_S1024x512_S2000x1024_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S2000x512_S1024x512_S2000x1024_1_1_0_0_n_n.rhsIdx (ix2 r b) ((contrEquiv1 dot_S2000x512_S1024x512_S2000x1024_1_1_0_0_n_n 512 rfl rfl).symm k) = ix2 b k := funext fun a => Fin.ext (by
    match a with
    | ⟨0, _⟩ => exact rhs_dot_0 _ _
    | ⟨1, _⟩ => exact (rhs_dot_1 _ _).trans hk)
  rw [el, er]

/-! ## The body's terms -/

/-- The class block with each row scaled by the reciprocal square root of its clamped sum of squares. -/
def clsN (v3 : FVec Ideal S2000x512 .f32) : FVec Ideal S2000x512 .bf16 :=
  truncf .bf16 (mulf v3 (broadcastTo S2000x512 (rsqrt (maximumf
    (shapeCast S2000x1 (multiReduction .add [1] S2000 (mulf v3 v3) 0x00000000#32 reduces_S2000x512_S2000 (.inl rfl) rfl) shapeCasts_S2000_S2000x1)
    (broadcast S2000x1 (Named.named κ "eps_sq" 0x24E69595#32)))) broadcasts_S2000x1_S2000x512)) bitsLt_bf16_f32

theorem clsN_apply (v3 : FVec Ideal S2000x512 .f32) (r : Fin 2000) (d : Fin 512) :
    clsN v3 (ix2 r d) = v3 (ix2 r d) * Ideal.rsqrt (max (∑ k : Fin 512, v3 (ix2 r k) * v3 (ix2 r k)) Cert.Margin.epsSqV) := by
  unfold clsN
  rw [truncf_apply, mulf_apply, Cert.Column.broadcastTo_a1_ab_apply]
  show v3 (ix2 r d) * Ideal.rsqrt (max (shapeCast S2000x1 _ shapeCasts_S2000_S2000x1 (ix2 r (0 : Fin 1))) (Named.named (F := Ideal) κ "eps_sq" (φ := .f32) 0x24E69595#32)) = _
  rw [Cert.Column.shapeCast_a_a1_apply, rowsum_apply, eps_sq_named]
  rfl

/-- The hinge of every class row of the block against every sample. -/
def hingeBlk (v3 : FVec Ideal S2000x512 .f32) (v13 : FVec Ideal S1024x512 .bf16) (v16 : FVec Ideal S1x1024 .f32) : FVec Ideal S2000x1024 .f32 :=
  maximumf (broadcast S2000x1024 (Scalar.ofBits .f32 0x00000000#32))
    (addf (broadcastTo S2000x1024 (subf (broadcast S1x1024 (Scalar.ofBits .f32 0x3DCCCCCD#32)) (shapeCast S1x1024 v16 shapeCasts_S1x1024_S1x1024)) broadcasts_S1x1024_S2000x1024)
      (matmul dot_S2000x512_S1024x512_S2000x1024_1_1_0_0_n_n none (clsN v3) (shapeCast S1024x512 v13 shapeCasts_S1024x512_S1024x512) (constant S2000x1024 .f32 0x00000000#32)))

theorem hingeBlk_apply (v3 : FVec Ideal S2000x512 .f32) (v13 : FVec Ideal S1024x512 .bf16) (v16 : FVec Ideal S1x1024 .f32) (r : Fin 2000) (b : Fin 1024) :
    hingeBlk v3 v13 v16 (ix2 r b) = Cert.Margin.hinge (v16 (ix2 0 b)) (∑ k : Fin 512, clsN v3 (ix2 r k) * v13 (ix2 b k)) := by
  unfold hingeBlk
  rw [maximumf_apply, addf_apply, broadcastTo_1b_ab_apply, scores_apply, shapeCast_self, shapeCast_self]
  show max (Ideal.ofBits .f32 0x00000000#32) ((Ideal.ofBits .f32 0x3DCCCCCD#32 - v16 (ix2 0 b)) + _) = _
  rw [Ideal.ofBits_zero_f32]
  rfl

/-- The updated row: the running row plus the block's hinge sums. -/
theorem pay2_eq (v3 : FVec Ideal S2000x512 .f32) (v13 : FVec Ideal S1024x512 .bf16) (v16 v26 : FVec Ideal S1x1024 .f32) :
    k0_pay2 (F := Ideal) v3 v13 v16 v26
      = shapeCast S1x1024 (addf v26 (shapeCast S1x1024 (multiReduction .add [0] S1024 (hingeBlk v3 v13 v16) 0x00000000#32 reduces_S2000x1024_S1024 (.inl rfl) rfl) shapeCasts_S1024_S1x1024)) shapeCasts_S1x1024_S1x1024 := rfl

theorem pay2_apply (v3 : FVec Ideal S2000x512 .f32) (v13 : FVec Ideal S1024x512 .bf16) (v16 v26 : FVec Ideal S1x1024 .f32) (b : Fin 1024) :
    k0_pay2 (F := Ideal) v3 v13 v16 v26 (ix2 0 b)
      = v26 (ix2 0 b) + ∑ r : Fin 2000, Cert.Margin.hinge (v16 (ix2 0 b))
          (∑ d : Fin 512, (v3 (ix2 r d) * Ideal.rsqrt (max (∑ k : Fin 512, v3 (ix2 r k) * v3 (ix2 r k)) Cert.Margin.epsSqV)) * v13 (ix2 b d)) := by
  rw [pay2_eq, shapeCast_self, addf_apply, shapeCast_a_1a_apply, colsum_apply]
  refine congrArg (v26 (ix2 0 b) + ·) (Finset.sum_congr rfl fun r _ => ?_)
  rw [hingeBlk_apply]
  exact congrArg (Cert.Margin.hinge (v16 (ix2 0 b))) (Finset.sum_congr rfl fun d _ => by rw [clsN_apply])

/-- The zero row. -/
theorem pay1_apply (j : S1x1024.Idx) : k0_pay1 (F := Ideal) j = 0 := by
  unfold k0_pay1
  rw [shapeCast_self]
  show Ideal.ofBits .f32 0x00000000#32 = 0
  exact Ideal.ofBits_zero_f32

/-- The finished row's total. -/
theorem pay3_apply (v34 : FVec Ideal S1x1024 .f32) (j : S1x1x1.Idx) :
    k0_pay3 (F := Ideal) v34 j = ∑ b : Fin 1024, v34 (ix2 0 b) := by
  unfold k0_pay3
  have h1 : ∀ (x : S1x1.Idx → EReal) (jj : S1x1x1.Idx), shapeCast S1x1x1 x shapeCasts_S1x1_S1x1x1 jj = x (ix2 0 0) := fun x jj =>
    shapeCast_apply x _ jj (ix2 0 0) (by
      have a := (S1x1.rowMajor (ix2 0 0)).isLt; have c := (S1x1x1.rowMajor jj).isLt
      have e1 : S1x1.numel = 1 := by decide
      have e2 : S1x1x1.numel = 1 := by decide
      omega)
  have h2 : ∀ (x : S1.Idx → EReal) (jj : S1x1.Idx), shapeCast S1x1 x shapeCasts_S1_S1x1 jj = x (ix1 0) := fun x jj =>
    shapeCast_apply x _ jj (ix1 0) (by
      have a := (S1.rowMajor (ix1 0)).isLt; have c := (S1x1.rowMajor jj).isLt
      have e1 : S1.numel = 1 := by decide
      have e2 : S1x1.numel = 1 := by decide
      omega)
  rw [h1, h2, lanesum_apply]

end Cert.KernelIdeal.Pay

end
-- ==== Proof.Accumulate.lean ====
/-
  The running row of partial sums, point by point, and the total each half writes out.

  The grid's 50 points run through the two halves of the class table, 25 blocks each. At the first block of a half the
  row is reset and the block's hinge sums added; at every later block the block's hinge sums are added to what the block
  before left. So after point t the row holds, at sample b, the sum of the addends of the points from the start of t's
  half up to t; and at the last block of a half the kernel stores the sum over the samples of that row.
-/
import proofs.«427285_j83846351552676_3_alg».proof.Proof.Gen.KernelIdeal.Frame
import proofs.«427285_j83846351552676_3_alg».proof.Proof.Pieces
import proofs.«427285_j83846351552676_3_alg».proof.Proof.Payload
import Idealize.ShloMosaic.Lib.Pipeline.Value

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The resident normalised inputs as the body finds them at point t. -/
abbrev xblk (c : Dev nD) (t : Fin cfg0.N) : FVec Ideal S1024x512 .bf16 := iblk m c 0 t
/-- The class block of point t. -/
abbrev cblk (c : Dev nD) (t : Fin cfg0.N) : FVec Ideal S2000x512 .f32 := iblk m c 1 t
/-- The row of target cosines as the body finds it at point t. -/
abbrev tblk (c : Dev nD) (t : Fin cfg0.N) : FVec Ideal S1x1024 .f32 := iblk m c 2 t

/-- The running row after point n. -/
abbrev row (c : Dev nD) (n : ℕ) (h : n < cfg0.N) : FVec Ideal S1x1024 .f32 := (outsAt0 m c n h).2

/-- Point n's addend at sample b: the hinge of each row of the point's class block against the sample, summed over the rows. -/
def addend (c : Dev nD) (n : ℕ) (b : Fin 1024) : EReal :=
  if h : n < cfg0.N then
    ∑ r : Fin 2000, Cert.Margin.hinge (tblk m c ⟨n, h⟩ (ix2 0 b))
      (∑ d : Fin 512, (cblk m c ⟨n, h⟩ (ix2 r d) * Ideal.rsqrt (max (∑ k : Fin 512, cblk m c ⟨n, h⟩ (ix2 r k) * cblk m c ⟨n, h⟩ (ix2 r k)) Cert.Margin.epsSqV))
        * xblk m c ⟨n, h⟩ (ix2 b d))
  else 0

/-- At the first block of a half the row is the zero row plus the point's addend. -/
theorem row_reset (c : Dev nD) (n : ℕ) (h : n < cfg0.N) (h0 : n % 25 = 0) (b : Fin 1024) :
    row m c n h (ix2 0 b) = 0 + addend m c n b := by
  have h1 : ¬ n % 25 = 24 := by omega
  show (outsAt0 m c (⟨n, h⟩ : Fin cfg0.N).val (⟨n, h⟩ : Fin cfg0.N).isLt).2 (ix2 0 b) = _
  rw [outsAt0_A m c ⟨n, h⟩ h0 h1]
  dsimp only
  rw [sout0_A_0_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)]
  refine (Pay.pay2_apply (cblk m c ⟨n, h⟩) (xblk m c ⟨n, h⟩) (tblk m c ⟨n, h⟩) (k0_pay1 (F := Ideal)) b).trans ?_
  rw [Pay.pay1_apply]
  unfold addend
  rw [dif_pos h]

/-- At a later block the row is what the block before left plus the point's addend. -/
theorem row_step (c : Dev nD) (n : ℕ) (h : n + 1 < cfg0.N) (h0 : ¬ (n + 1) % 25 = 0) (b : Fin 1024) :
    row m c (n + 1) h (ix2 0 b) = row m c n (Nat.lt_of_succ_lt h) (ix2 0 b) + addend m c (n + 1) b := by
  show (outsAt0 m c (⟨n + 1, h⟩ : Fin cfg0.N).val (⟨n + 1, h⟩ : Fin cfg0.N).isLt).2 (ix2 0 b) = _
  by_cases h1 : (n + 1) % 25 = 24
  · rw [outsAt0_C m c ⟨n + 1, h⟩ h0 h1]
    dsimp only
    show sout0_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2 (ix2 0 b) = _
    rw [sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2]
    refine (Pay.pay2_apply (cblk m c ⟨n + 1, h⟩) (xblk m c ⟨n + 1, h⟩) (tblk m c ⟨n + 1, h⟩) (row m c n (Nat.lt_of_succ_lt h)) b).trans ?_
    unfold addend
    rw [dif_pos h]
  · rw [outsAt0_B m c ⟨n + 1, h⟩ h0 h1]
    dsimp only
    show sout0_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2 (ix2 0 b) = _
    rw [sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2]
    refine (Pay.pay2_apply (cblk m c ⟨n + 1, h⟩) (xblk m c ⟨n + 1, h⟩) (tblk m c ⟨n + 1, h⟩) (row m c n (Nat.lt_of_succ_lt h)) b).trans ?_
    unfold addend
    rw [dif_pos h]

/-- After point t the row holds, at sample b, the addends of the points from the start of t's half up to t. -/
theorem row_eq_sum (c : Dev nD) (t : ℕ) (ht : t < cfg0.N) (b : Fin 1024) :
    row m c t ht (ix2 0 b) = 0 + ∑ s ∈ Finset.range (t % 25 + 1), addend m c (25 * (t / 25) + s) b := by
  have hb : 25 * (t / 25) + t % 25 < cfg0.N := by rw [Nat.div_add_mod]; exact ht
  have e := Pipeline.eq_accAt_of_mod (N := cfg0.N) (α := Fin 1024 → EReal)
    (fun n h bb => row m c n h (ix2 0 bb)) 25
    (fun n _ bb => 0 + addend m c n bb) (fun n _ acc bb => acc bb + addend m c n bb)
    (fun n h h0 => funext fun bb => row_reset m c n h h0 bb)
    (fun n h h0 => funext fun bb => row_step m c n h h0 bb)
    (by norm_num) t ht hb
  have e' := congrFun e b
  rw [e']
  exact Pipeline.accAt_add_apply (N := cfg0.N) (ι := Fin 1024) (β := EReal)
    (fun n _ bb => 0 + addend m c n bb) (fun n _ acc bb => acc bb + addend m c n bb) (fun _ => 0) (fun n bb => addend m c n bb)
    (25 * (t / 25)) (t % 25) (fun _ _ => rfl) (fun _ _ _ _ _ _ => rfl) (t % 25) (le_refl _) hb b

/-- At the last block of a half the output block holds the total over the samples of the finished row. -/
theorem out_total (c : Dev nD) (t : Fin cfg0.N) (h1 : t.val % 25 = 24) (j : S1x1x1.Idx) :
    ((outsAt0 m c t.val t.isLt).1 : FVec Ideal S1x1x1 .f32) j
      = ∑ b : Fin 1024, (0 + ∑ s ∈ Finset.range 25, addend m c (25 * (t.val / 25) + s) b) := by
  have h0 : ¬ t.val % 25 = 0 := by omega
  have hpos : 0 < t.val := by omega
  obtain ⟨n, hn⟩ : ∃ n, t.val = n + 1 := ⟨t.val - 1, by omega⟩
  have hlt : n + 1 < cfg0.N := hn ▸ t.isLt
  have et : t = ⟨n + 1, hlt⟩ := Fin.ext hn
  subst et
  have hrow : ∀ b : Fin 1024, row m c (n + 1) hlt (ix2 0 b) = 0 + ∑ s ∈ Finset.range 25, addend m c (25 * ((n + 1) / 25) + s) b := fun b => by
    have := row_eq_sum m c (n + 1) hlt b
    rw [show (n + 1) % 25 + 1 = 25 from by have : (n + 1) % 25 = 24 := h1; omega] at this
    exact this
  show (outsAt0 m c (⟨n + 1, hlt⟩ : Fin cfg0.N).val (⟨n + 1, hlt⟩ : Fin cfg0.N).isLt).1 j = _
  have hC := outsAt0_C m c ⟨n + 1, hlt⟩ h0 h1
  -- the output block is the total of the row the same point leaves
  have hrow2 : (outsAt0 m c (⟨n + 1, hlt⟩ : Fin cfg0.N).val (⟨n + 1, hlt⟩ : Fin cfg0.N).isLt).2
      = k0_pay2 (F := Ideal) (cblk m c ⟨n + 1, hlt⟩) (xblk m c ⟨n + 1, hlt⟩) (tblk m c ⟨n + 1, hlt⟩) (outsAt0 m c n (Nat.lt_of_succ_lt hlt)).2 := by
    rw [hC]; dsimp only
    exact sout0_C_0_eq (F := Ideal) c (grid0.coords ⟨n + 1, hlt⟩) (ms0_0 ⟨n + 1, hlt⟩) (hs0_0 ⟨n + 1, hlt⟩) (ms0_1 ⟨n + 1, hlt⟩) (hs0_1 ⟨n + 1, hlt⟩) (ms0_2 ⟨n + 1, hlt⟩) (hs0_2 ⟨n + 1, hlt⟩) (ms0_3 ⟨n + 1, hlt⟩) (hs0_3 ⟨n + 1, hlt⟩) scM0_0 (Memref.isWhole_whole _) (fun hh => h0 ((hcond0_0 ⟨n + 1, hlt⟩).mp hh)) ((hcond0_1 ⟨n + 1, hlt⟩).mpr h1) (iblk m c 0 ⟨n + 1, hlt⟩) (iblk m c 1 ⟨n + 1, hlt⟩) (iblk m c 2 ⟨n + 1, hlt⟩) (outsAt0 m c n (Nat.lt_of_succ_lt hlt)).2
  have hout : (outsAt0 m c (⟨n + 1, hlt⟩ : Fin cfg0.N).val (⟨n + 1, hlt⟩ : Fin cfg0.N).isLt).1
      = k0_pay3 (F := Ideal) (k0_pay2 (F := Ideal) (cblk m c ⟨n + 1, hlt⟩) (xblk m c ⟨n + 1, hlt⟩) (tblk m c ⟨n + 1, hlt⟩) (outsAt0 m c n (Nat.lt_of_succ_lt hlt)).2) := by
    rw [hC]; dsimp only
    exact out0_C_3_eq (F := Ideal) c (grid0.coords ⟨n + 1, hlt⟩) (ms0_0 ⟨n + 1, hlt⟩) (hs0_0 ⟨n + 1, hlt⟩) (ms0_1 ⟨n + 1, hlt⟩) (hs0_1 ⟨n + 1, hlt⟩) (ms0_2 ⟨n + 1, hlt⟩) (hs0_2 ⟨n + 1, hlt⟩) (ms0_3 ⟨n + 1, hlt⟩) (hs0_3 ⟨n + 1, hlt⟩) scM0_0 (Memref.isWhole_whole _) (fun hh => h0 ((hcond0_0 ⟨n + 1, hlt⟩).mp hh)) ((hcond0_1 ⟨n + 1, hlt⟩).mpr h1) (iblk m c 0 ⟨n + 1, hlt⟩) (iblk m c 1 ⟨n + 1, hlt⟩) (iblk m c 2 ⟨n + 1, hlt⟩) (outsAt0 m c n (Nat.lt_of_succ_lt hlt)).2
  rw [hout, ← hrow2, Pay.pay3_apply]
  exact Finset.sum_congr rfl fun b _ => hrow b

end Cert.KernelIdeal.Acc

end
-- ==== Proof.OutArray.lean ====
/-
  The kernel's output array after the run: entry p is the total of half p.

  The one-element output block is written back only at the last block of a half (points 24 and 49), where it holds the
  sum over the samples of the finished running row; block p of the two-element output array is that point's block, and the
  two blocks cover the array. So the array ends holding, at p, the sum over the samples b of the sum over the 25 blocks of
  half p of the block's addend at b.
-/
import proofs.«427285_j83846351552676_3_alg».proof.Proof.Gen.KernelIdeal.Frame
import proofs.«427285_j83846351552676_3_alg».proof.Proof.Accumulate
import Idealize.ShloMosaic.Lib.Pipeline.Value

set_option maxRecDepth 16384

noncomputable section

namespace Cert.KernelIdeal.Out

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The total of half p: over the samples, the addends of the half's 25 blocks. -/
def halfTotal (c : Dev nD) (p : ℕ) : EReal :=
  ∑ b : Fin 1024, (0 + ∑ s ∈ Finset.range 25, Acc.addend m c (25 * p + s) b)

/-- The output array after the run. -/
def outArr (c : Dev nD) : S2x1x1.Idx → EReal := fun i => halfTotal m c (i 0).val

/-- The output's block index at point t is t's half on the first axis and zero on the others (decided over the grid). -/
theorem idx_facts3 : ∀ t : Fin cfg0.N, win0_3.index t (0 : Fin 3) = t.val / 25 ∧ win0_3.index t (1 : Fin 3) = 0 ∧ win0_3.index t (2 : Fin 3) = 0 :=
  (by decide +kernel : ∀ t : Fin grid0.N, win0_3.index t (0 : Fin 3) = t.val / 25 ∧ win0_3.index t (1 : Fin 3) = 0 ∧ win0_3.index t (2 : Fin 3) = 0)

/-- What a flushing point writes back is its block of the array of totals. -/
theorem flushed3_eq (c : Dev nD) (t : Fin cfg0.N) (hf : (cfg0.win 3).flush t = true) :
    (dats m 0 c).flushed 3 t = ((cfg0.win 3).blk t).view.read (Elt Ideal) (outArr m c) := by
  show (cfg0.win 3).cut (grid0.coords t) ((dats m 0 c).after 3 t) = _
  rw [after0_3]
  have h1 : t.val % 25 = 24 := (flush0_3 t).mp hf
  funext j
  show ((outsAt0 m c t.val t.isLt).1 : FVec Ideal S1x1x1 .f32) j = outArr m c (((cfg0.win 3).blk t).view.emb j)
  rw [Acc.out_total m c t h1 j]
  unfold outArr halfTotal
  have e : ((((cfg0.win 3).blk t).view.emb j) 0).val = t.val / 25 := by
    show win0_3.index t (0 : Fin 3) * 1 + 1 * (j 0).val = _
    have e0 := (idx_facts3 t).1
    have hj : (j 0).val < 1 := (j 0).isLt
    omega
  rw [e]

/-- An index of the array is in point t's block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v21).slice (win0_3.rect t)).set ↔ _
  rw [View.set_slice_whole, Rect.mem_set_unit]
  exact Iff.rfl

/-- Entry p of the array lies in the block written back at the last point of half p. -/
theorem cover3 (i : S2x1x1.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : cfg0.N = 50 := N_0
  have hlt : 25 * (i 0).val + 24 < cfg0.N := by omega
  refine ⟨⟨25 * (i 0).val + 24, hlt⟩, (flush0_3 _).mpr (by show (25 * (i 0).val + 24) % 25 = 24; omega), ?_⟩
  rw [mem_blk3]
  obtain ⟨e0, e1, e2⟩ := idx_facts3 ⟨25 * (i 0).val + 24, hlt⟩
  have e0' : win0_3.index ⟨25 * (i 0).val + 24, hlt⟩ (0 : Fin 3) = (i 0).val := by
    rw [e0]; show (25 * (i 0).val + 24) / 25 = (i 0).val; omega
  intro a
  match a with
  | ⟨0, _⟩ => show win0_3.index ⟨25 * (i 0).val + 24, hlt⟩ (0 : Fin 3) * 1 ≤ (i 0).val ∧ (i 0).val < win0_3.index ⟨25 * (i 0).val + 24, hlt⟩ (0 : Fin 3) * 1 + 1; omega
  | ⟨1, _⟩ => show win0_3.index ⟨25 * (i 0).val + 24, hlt⟩ (1 : Fin 3) * 1 ≤ (i 1).val ∧ (i 1).val < win0_3.index ⟨25 * (i 0).val + 24, hlt⟩ (1 : Fin 3) * 1 + 1; omega
  | ⟨2, _⟩ => show win0_3.index ⟨25 * (i 0).val + 24, hlt⟩ (2 : Fin 3) * 1 ≤ (i 2).val ∧ (i 2).val < win0_3.index ⟨25 * (i 0).val + 24, hlt⟩ (2 : Fin 3) * 1 + 1; omega

/-- The output array after the run is the array of the two totals. -/
theorem out_final (c : Dev nD) : ((dats m 0 c).arrAt 3 cfg0.N : S2x1x1.Idx → EReal) = outArr m c :=
  (dats m 0 c).arrAt_eq_of_cover 3 (outArr m c) (fun t hf => flushed3_eq m c t hf) (cover3)

end Cert.KernelIdeal.Out

end
-- ==== Proof.Blocks.lean ====
/-
  Each input window's block at a grid point, read out of its array.

  The grid is 2 x 25, fifty points in row-major order. The normalised inputs (window 0) and the samples' target
  scores (window 2, one row of 1024) are taken whole at every point: their block index is zero on both axes, so an element of the block
  sits in the array at its own coordinates. The class rows (window 1) advance by one block of 2000 rows per
  point: the block index at point t is (t, 0), so row r of the block is row t * 2000 + r of the array. A block
  element's array coordinate is, on each axis, block index times block size plus its coordinate in the block.
-/
import proofs.«427285_j83846351552676_3_alg».proof.Proof.Gen.KernelIdeal.Frame.Runs
import proofs.«427285_j83846351552676_3_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Cert.KernelIdeal Cert.KernelIdeal.Gen Cert.Margin

variable (m : (ℓ : Loc nD τ sig) → Buf (Elt Ideal) ℓ)

/-! ### The block indices, decided once over the grid -/

/-- Window 0 sits at block (0, 0) at every point. -/
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 1 sits at block (t, 0) at point t. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 2 sits at block (0, 0) at every point. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ### The blocks -/

/-- Window 0's block is its whole array at every point. -/
theorem iblk0_apply (c : Dev nD) (t : Fin cfg0.N) (b : Fin 1024) (d : Fin 512) :
    (iblk m c 0 t : S1024x512.Idx → EReal) (ix2 b d) = (V m c main_v8 : S1024x512.Idx → EReal) (ix2 b d) := by
  obtain ⟨e0, e1⟩ := index0 t
  unfold iblk
  rw [View.read_apply]
  show V m c main_v8 _ = V m c main_v8 _
  congr 1
  funext a
  apply Fin.ext
  match a with
  | ⟨0, _⟩ => show win0_0.index t (0 : Fin 2) * 1024 + 1 * b.val = b.val; rw [e0]; omega
  | ⟨1, _⟩ => show win0_0.index t (1 : Fin 2) * 512 + 1 * d.val = d.val; rw [e1]; omega

/-- Window 2's block is its whole array at every point. -/
theorem iblk2_apply (c : Dev nD) (t : Fin cfg0.N) (b : Fin 1024) :
    (iblk m c 2 t : S1x1024.Idx → EReal) (ix2 0 b) = (V m c main_v20 : S1x1024.Idx → EReal) (ix2 0 b) := by
  obtain ⟨e0, e1⟩ := index2 t
  unfold iblk
  rw [View.read_apply]
  show V m c main_v20 _ = V m c main_v20 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * b.val = b.val; rw [e1]; omega

/-- Row r of window 1's block at point t is row t * 2000 + r of the class array as launched. -/
theorem iblk1_apply (c : Dev nD) (t : Fin cfg0.N) (r : Fin 2000) (d : Fin 512) :
    (iblk m c 1 t : S2000x512.Idx → EReal) (ix2 r d)
      = (m ((c : Thread nD τ).loc main_arg1) : S100000x512.Idx → EReal)
          (ix2 ⟨t.val * 2000 + r.val, by have ht : t.val < 50 := lt_of_lt_of_eq t.isLt N_0; have := r.isLt; omega⟩ d) := by
  obtain ⟨e0, e1⟩ := index1 t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 512 + 1 * d.val = d.val; rw [e1]; omega

end Cert.KernelIdeal.Blocks

end
-- ==== Proof.HostPre.lean ====
/-
  The two arrays the host computes before the region, read at an index.

  The first is the input with each row divided by max(sqrt(sum of its squares), eps), then narrowed, which on the
  extended reals is the identity: entry (b, d) is input row b divided by its clamped norm, at d.

  The second is, for each sample b, the inner product of normalised input row b with the normalised row b of the
  "taken" class rows, laid out as a 1 x 1024 row. The take wraps each target word at 100000, marks the samples whose
  wrapped target lies in [0, 99999], gathers the class rows at the wrapped targets (each start index read signed and
  clamped into the axis) and keeps a gathered row only where the mark is set. With every target in range the wrap moves
  nothing, every mark is set and the clamp changes nothing, so taken row b is the class row of sample b's target; dividing
  it by its own clamped norm is dividing that class row by its clamped norm, and the inner product is the cosine of
  input row b with its target's class row. A float sum is its initial value, the zero word, plus the sum.
-/
import proofs.«427285_j83846351552676_3_alg».proof.Proof.Gen.KernelIdeal.Frame.Runs
import proofs.«427285_j83846351552676_3_alg».proof.Proof.Spec
import Idealize.ShloMosaic.Lib.StableHlo.Predicate
import Idealize.ShloMosaic.Lib.Pipeline.Value
import Idealize.ShloMosaic.Lib.ValueLayout
import Idealize.ShloMosaic.PureOps.Ideal.Laws

noncomputable section

namespace Cert.KernelIdeal.HostPre

open Idealize.ShloMosaic Idealize.ShloMosaic.TcCoe Idealize.ShloMosaic.ValueIdx Cert.KernelIdeal Cert.KernelIdeal.Gen Cert.Margin
open scoped BigOperators

variable (m : (ℓ : Loc nD τ sig) → Buf (Elt Ideal) ℓ)

/-! ## Layout operations at an index -/

section Layout
variable {α : Type}

/-- A 1024 × 1 column laid along the rows of a 1024 × 512 rectangle reads, at (b, d), the column at b. -/
theorem bcol_apply (h : S1024x1.BroadcastsInDim S1024x512 (![0, 1] : Fin 2 → Fin S1024x512.rank)) (y : S1024x1.Idx → α)
    (b : Fin 1024) (d : Fin 512) : broadcastInDim S1024x512 ![0, 1] h y (ix2 b d) = y (ix2 b (0 : Fin 1)) :=
  broadcastInDim_apply _ h y _ _ (fun a => match a with
    | ⟨0, _⟩ => by show b.val = if (1024 : Nat) = 1 then 0 else b.val; rw [if_neg (by decide)]
    | ⟨1, _⟩ => by show 0 = if (1 : Nat) = 1 then 0 else d.val; rw [if_pos rfl])

/-- A vector of 1024 as a 1024 × 1 column reads, at (b, 0), the vector at b. -/
theorem bvec_apply (h : S1024.BroadcastsInDim S1024x1 (![0] : Fin 1 → Fin S1024x1.rank)) (v : S1024.Idx → α) (b : Fin 1024) :
    broadcastInDim S1024x1 ![0] h v (ix2 b (0 : Fin 1)) = v (ix1 b) :=
  broadcastInDim_apply _ h v _ _ (fun a => match a with
    | ⟨0, _⟩ => by show b.val = if (1024 : Nat) = 1 then 0 else b.val; rw [if_neg (by decide)])

/-- A vector of 1024 laid along the rows of a 1024 × 512 rectangle reads, at (b, d), the vector at b. -/
theorem bvec512_apply (h : S1024.BroadcastsInDim S1024x512 (![0] : Fin 1 → Fin S1024x512.rank)) (v : S1024.Idx → α)
    (b : Fin 1024) (d : Fin 512) : broadcastInDim S1024x512 ![0] h v (ix2 b d) = v (ix1 b) :=
  broadcastInDim_apply _ h v _ _ (fun a => match a with
    | ⟨0, _⟩ => by show b.val = if (1024 : Nat) = 1 then 0 else b.val; rw [if_neg (by decide)])

/-- A scalar laid over any shape reads the scalar everywhere. -/
theorem bscalar_apply {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- The row take: the operand's axis 0 is collapsed and start-indexed, its axis 1 kept whole, so the result at (b, d) is
    the operand at (the start index of row b, read signed and clamped into the axis; d). -/
theorem gather_row (C : S100000x512.Idx → α) (idx : IVec S1024x1 32) (b : Fin 1024) (d : Fin 512) :
    Host.gather gather_S100000x512_S1024x1_S1024x512_1_0_n_n_0_1_1512 C idx (ix2 b d)
      = C (ix2 (⟨min (idx (ix2 b (0 : Fin 1))).toInt.toNat 99999, by omega⟩ : Fin 100000) d) := by
  unfold Host.gather
  congr 1
  funext a
  refine Fin.ext ?_
  match a with
  | ⟨0, _⟩ =>
    show gather_S100000x512_S1024x1_S1024x512_1_0_n_n_0_1_1512.start (ix2 b d) idx 0
        + gather_S100000x512_S1024x1_S1024x512_1_0_n_n_0_1_1512.batchCoord (ix2 b d) 0
        + gather_S100000x512_S1024x1_S1024x512_1_0_n_n_0_1_1512.offCoord (ix2 b d) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S100000x512_S1024x1_S1024x512_1_0_n_n_0_1_1512.startIndexMap from List.mem_cons_self ..)]
    have hsi : gather_S100000x512_S1024x1_S1024x512_1_0_n_n_0_1_1512.siIdx (ix2 b d)
        ⟨List.idxOf (0 : Fin 2) gather_S100000x512_S1024x1_S1024x512_1_0_n_n_0_1_1512.startIndexMap,
          List.idxOf_lt_length_iff.2 (List.mem_cons_self ..)⟩ = ix2 b (0 : Fin 1) := by
      funext e; refine Fin.ext ?_
      match e with
      | ⟨0, _⟩ => rfl
      | ⟨1, _⟩ => rfl
    rw [hsi]
    rfl
  | ⟨1, _⟩ =>
    show gather_S100000x512_S1024x1_S1024x512_1_0_n_n_0_1_1512.start (ix2 b d) idx 1
        + gather_S100000x512_S1024x1_S1024x512_1_0_n_n_0_1_1512.batchCoord (ix2 b d) 1
        + gather_S100000x512_S1024x1_S1024x512_1_0_n_n_0_1_1512.offCoord (ix2 b d) 1 = d.val
    rw [GatherDims.batchCoord_eq_zero _ _ _ List.not_mem_nil]
    unfold GatherDims.start
    rw [dif_neg (show ¬ (1 : Fin 2) ∈ gather_S100000x512_S1024x1_S1024x512_1_0_n_n_0_1_1512.startIndexMap from by decide)]
    simp only [Nat.add_zero, Nat.zero_add]
    rfl

end Layout

/-! ## Words -/

/-- A 32-bit word that reads below 2^31 unsigned is not below zero signed. -/
theorem slt_zero_of_small {a : BitVec 32} (ha : a.toNat < 2 ^ 31) : IntOp.cmpi .slt a 0#32 = 0#1 :=
  eq_zero_of_ne_one fun h =>
    absurd ((StableHlo.Predicate.slt_iff_toNat ha (by decide)).mp h) (Nat.not_lt_zero _)

/-- A left fold by "and" from 1 over one-bit words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l (fun n hn => h n (List.mem_cons_of_mem _ hn))

/-- A reduction by "and" from 1 of an array of one-bit words that are all 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ (fun n _ => hx n)

/-! ## The host's operations before the region, as pure functions of the three arrays -/

/-- A 1024 × 512 array with each row divided by max(sqrt(sum of its squares), eps). -/
def rowNorm (A : FVec Ideal S1024x512 .f32) : FVec Ideal S1024x512 .f32 :=
  Host.divf A (broadcastInDim S1024x512 ![0, 1] bcast_S1024x1_S1024x512_0_1
    (maximumf
      (Host.sqrt (broadcastInDim S1024x1 ![0] bcast_S1024_S1024x1_0
        (Host.reduceAdd (mulf A A) (constant S_ .f32 0x00000000#32) reducesTo_S1024x512_S1024_d1 h_S_)))
      (broadcastInDim S1024x1 ![] bcast_S_S1024x1 (constant S_ .f32 0x322BCC77#32))))

/-- The targets wrapped at 100000 (a negative word has 100000 added), as a 1024 × 1 column of start indices. -/
def wrapIdx (T : IVec S1024 32) : IVec S1024x1 32 :=
  broadcastInDim S1024x1 ![0] bcast_S1024_S1024x1_0
    (select (cmpi .slt T (broadcastInDim S1024 ![] bcast_S_S1024 (constantI S_ 32 0#32)))
      (addi T (broadcastInDim S1024 ![] bcast_S_S1024 (constantI S_ 32 100000#32))) T)

/-- For each sample, whether its wrapped target lies in [0, 99999]. -/
def inBounds (T : IVec S1024 32) : IVec S1024 1 :=
  Host.reduce IntOp.andi
    (andi (cmpi .sge (wrapIdx T) (broadcastInDim S1024x1 ![] bcast_S_S1024x1 (constantI S_ 32 0#32)))
      (cmpi .sle (wrapIdx T) (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The class rows taken at the targets: row b is the class row at sample b's wrapped target where that is in bounds,
    a fill word elsewhere. -/
def takeRows (C : FVec Ideal S100000x512 .f32) (T : IVec S1024 32) : FVec Ideal S1024x512 .f32 :=
  select (broadcastInDim S1024x512 ![0] bcast_S1024_S1024x512_0 (inBounds T))
    (Host.gather gather_S100000x512_S1024x1_S1024x512_1_0_n_n_0_1_1512 C (wrapIdx T))
    (broadcastInDim S1024x512 ![] bcast_S_S1024x512 (constant S_ .f32 0x7FC00000#32))

/-- The inner products of corresponding rows of two 1024 × 512 arrays. -/
def rowDot (A B : FVec Ideal S1024x512 .f32) : FVec Ideal S1024 .f32 :=
  Host.reduceAdd (mulf A B) (constant S_ .f32 0x00000000#32) reducesTo_S1024x512_S1024_d1 h_S_

/-- The array the region reads its input rows from: the normalised input rows (the narrowing conversion is the identity on
    the extended reals). -/
theorem V_v8_term (c : Dev nD) :
    @Eq (S1024x512.Idx → EReal) (V m c main_v8)
      (truncf .bf16 (rowNorm (m ((c : Thread nD τ).loc main_arg0))) bitsLt_bf16_f32) := by
  dsimp only [V, V0]
  simp only [hostOps0, hostOps0_1, hostOps0_2, List.flatten_cons, List.flatten_nil, List.append_nil, List.cons_append,
    List.nil_append]
  after_results_simp
  rfl

set_option maxHeartbeats 2000000 in
/-- The array the region reads the target scores from: the inner products of the normalised input rows with the normalised
    taken rows, as a 1 × 1024 row. -/
theorem V_v20_term (c : Dev nD) :
    @Eq (S1x1024.Idx → EReal) (V m c main_v20)
      (shapeCast S1x1024 (rowDot (rowNorm (m ((c : Thread nD τ).loc main_arg0)))
        (rowNorm (takeRows (m ((c : Thread nD τ).loc main_arg1)) (m ((c : Thread nD τ).loc main_arg2)))))
        shapeCasts_S1024_S1x1024) := by
  dsimp only [V, V0]
  simp only [hostOps0, hostOps0_1, hostOps0_2, List.flatten_cons, List.flatten_nil, List.append_nil, List.cons_append,
    List.nil_append]
  after_results_simp
  rfl

/-! ## The pure functions at an index -/

section AtIndex

/-- The host's quotient at an index is the quotient of the elements. -/
theorem hdivf_apply {s : Shape} {φ : FTy} (a b : FVec Ideal s φ) (i : s.Idx) : Host.divf a b i = Ideal.div (a i) (b i) := rfl
/-- The host's square root at an index is the square root of the element. -/
theorem hsqrt_apply {s : Shape} {φ : FTy} (a : FVec Ideal s φ) (i : s.Idx) : Host.sqrt a i = Ideal.sqrt (a i) := rfl

/-- A float sum along the rows of a 1024 × 512 array from the zero word: at b, the sum of row b. -/
theorem rowsum_apply (Y : FVec Ideal S1024x512 .f32) (b : Fin 1024) :
    Host.reduceAdd Y (constant S_ .f32 0x00000000#32) reducesTo_S1024x512_S1024_d1 h_S_ (ix1 b) = ∑ k : Fin 512, Y (ix2 b k) := by
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  refine Finset.sum_congr rfl fun k _ => ?_
  exact congrArg Y (funext fun a => Fin.ext (by match a with | ⟨0, _⟩ => rfl | ⟨1, _⟩ => rfl))

/-- A normalised array at (b, d): the entry divided by its row's clamped norm. -/
theorem rowNorm_apply (A : FVec Ideal S1024x512 .f32) (b : Fin 1024) (d : Fin 512) :
    rowNorm A (ix2 b d) = normed (rows A) b d := by
  rw [rowNorm, hdivf_apply, bcol_apply, maximumf_apply, hsqrt_apply, bvec_apply, bscalar_apply, constant_apply, rowsum_apply]
  rfl

/-- A target in range is not moved by the wrap. -/
theorem wrapIdx_apply (T : IVec S1024 32) (hT : InRange T) (b : Fin 1024) : wrapIdx T (ix2 b (0 : Fin 1)) = T (ix1 b) := by
  rw [wrapIdx, bvec_apply, select_apply]
  show Scalar.select (IntOp.cmpi .slt (T (ix1 b)) 0#32) _ _ = _
  rw [slt_zero_of_small (by have := hT b; omega), select_zero]

/-- With every target in range the bounds mask is set everywhere. -/
theorem inBounds_apply (T : IVec S1024 32) (hT : InRange T) (j : S1024.Idx) : inBounds T j = 1#1 := by
  unfold inBounds
  refine reduce_andi_ones _ _ _ _ (fun i => ?_) rfl j
  obtain ⟨b, z, rfl⟩ : ∃ (b : Fin 1024) (z : Fin 1), i = ix2 b z := ⟨i 0, i 1, eq_ix2 i⟩
  obtain rfl : z = 0 := Subsingleton.elim _ _
  show IntOp.andi (IntOp.cmpi .sge (wrapIdx T (ix2 b (0 : Fin 1))) 0#32)
    (IntOp.cmpi .sle (wrapIdx T (ix2 b (0 : Fin 1))) 99999#32) = 1#1
  rw [wrapIdx_apply T hT b]
  have h := hT b
  have h1 : IntOp.cmpi .sge (T (ix1 b)) 0#32 = 1#1 :=
    (StableHlo.Predicate.sge_iff_toNat (by omega) (by decide)).mpr (Nat.zero_le _)
  have h2 : IntOp.cmpi .sle (T (ix1 b)) 99999#32 = 1#1 :=
    (StableHlo.Predicate.sle_iff_toNat (by omega) (by decide)).mpr (by show _ ≤ 99999; omega)
  rw [h1, h2]
  decide

/-- With every target in range, row b of the taken rows is the class row of sample b's target. -/
theorem takeRows_apply (C : FVec Ideal S100000x512 .f32) (T : IVec S1024 32) (hT : InRange T) (b : Fin 1024) (d : Fin 512) :
    takeRows C T (ix2 b d) = C (ix2 (tgt T b) d) := by
  rw [takeRows, select_apply, bvec512_apply, inBounds_apply T hT, select_one, gather_row]
  have e : (⟨min (wrapIdx T (ix2 b (0 : Fin 1))).toInt.toNat 99999, by omega⟩ : Fin 100000) = tgt T b := Fin.ext (by
    have h := hT b
    show min (wrapIdx T (ix2 b (0 : Fin 1))).toInt.toNat 99999 = (T (ix1 b)).toNat % 100000
    rw [wrapIdx_apply T hT b, StableHlo.Predicate.toInt_eq_toNat_of_lt (by omega), Int.toNat_natCast, Nat.mod_eq_of_lt h]
    omega)
  exact congrArg (fun r => C (ix2 r d)) e

/-- So a taken row divided by its own clamped norm is the target's class row divided by its clamped norm. -/
theorem normed_take (C : FVec Ideal S100000x512 .f32) (T : IVec S1024 32) (hT : InRange T) (b : Fin 1024) (d : Fin 512) :
    normed (rows (takeRows C T)) b d = normed (rows C) (tgt T b) d := by
  unfold normed sumsq rows
  simp only [takeRows_apply C T hT]

end AtIndex

/-! ## The two arrays the region finds -/

/-- The region's input rows: entry (b, d) is input row b divided by its clamped norm, at d. -/
theorem V_v8_apply (c : Dev nD) (b : Fin 1024) (d : Fin 512) :
    (V m c main_v8 : S1024x512.Idx → EReal) (ix2 b d) = normed (rows (m ((c : Thread nD τ).loc main_arg0))) b d :=
  (congrFun (V_v8_term m c) (ix2 b d)).trans (rowNorm_apply _ b d)

/-- The region's target scores: with every target in range, entry (0, b) is the cosine of input row b with the class row of
    sample b's target. -/
theorem V_v20_apply (c : Dev nD) (hT : InRange (m ((c : Thread nD τ).loc main_arg2))) (b : Fin 1024) :
    (V m c main_v20 : S1x1024.Idx → EReal) (ix2 (0 : Fin 1) b)
      = cosine (rows (m ((c : Thread nD τ).loc main_arg0))) (rows (m ((c : Thread nD τ).loc main_arg1))) b
          (tgt (m ((c : Thread nD τ).loc main_arg2)) b) := by
  refine (congrFun (V_v20_term m c) (ix2 (0 : Fin 1) b)).trans ?_
  show @Eq EReal _ _
  rw [shapeCast_a_1a_apply, rowDot, rowsum_apply]
  unfold cosine
  refine Finset.sum_congr rfl fun k _ => ?_
  rw [mulf_apply, rowNorm_apply, rowNorm_apply, normed_take _ _ hT]

end Cert.KernelIdeal.HostPre
end
-- ==== Proof.Tail.lean ====
/-
  The host operations after the kernel region, read at the ideal values.

  The region leaves a [2, 1, 1] array O, one partial loss sum per half of the classes. The six operations after it are:
  the constant 0; the sum of O over all three of its axes, started from that 0; the constant whose word is 0x42CCCCCD
  (1024 margins); their difference; the constant whose word is 0x44800000 (the count 1024); the quotient. At the ideal
  values the subtraction is the extended reals', the division is the ideal division, a constant is the value of its word
  (the zero word is 0), and a sum-reduction into the scalar shape is the initial value plus the sum over EVERY index of
  the operand. An index of a [2, 1, 1] array is (p, 0, 0), its last two axes having one coordinate each, so that sum is
  the sum over p : Fin 2 of O (p, 0, 0). Hence the result is ((sum over p of O (p, 0, 0)) - marginsW) / countW.
-/
import proofs.«427285_j83846351552676_3_alg».proof.Proof.Gen.KernelIdeal.Frame.Runs
import proofs.«427285_j83846351552676_3_alg».proof.Proof.Spec
import Idealize.ShloMosaic.PureOps.Ideal.Laws
import Idealize.ShloMosaic.Lib.ValueIdx

set_option maxRecDepth 16384

noncomputable section

namespace Cert.KernelIdeal.Tail

open Idealize.ShloMosaic Idealize.ShloMosaic.TcCoe Idealize.ShloMosaic.ValueIdx Cert.KernelIdeal Cert.KernelIdeal.Gen Cert.Margin

/-- Every index of a [2, 1, 1] array is (its first coordinate, 0, 0): the other two axes have one coordinate. -/
theorem idx_eq (i : S2x1x1.Idx) : i = ix3 (i 0) 0 0 := by
  funext d
  match d with
  | ⟨0, _⟩ => rfl
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- A sum over the indices of a [2, 1, 1] array is the sum over its first coordinate: i ↦ i 0 is a bijection onto
    Fin 2 with inverse p ↦ (p, 0, 0). -/
theorem sum_S2x1x1 (O : S2x1x1.Idx → EReal) : ∑ i : S2x1x1.Idx, O i = ∑ p : Fin 2, O (ix3 p 0 0) := by
  refine Fintype.sum_equiv ⟨fun i => i 0, fun p => ix3 p 0 0, fun i => ?_, fun p => rfl⟩ _ _ fun i => ?_
  · exact (idx_eq i).symm
  · exact congrArg O (idx_eq i)

variable (m : (ℓ : Loc nD τ sig) → Buf (Elt Ideal) ℓ)

/-- The program's result after the region: with O the array the region leaves in its output window (window 3, the
    buffer main_v21), the last operation's buffer holds ((∑ p, O (p, 0, 0)) - marginsW) / countW at its one index.
    The lines after the region start from the region's exit contents, in which the window's array is the proof data's
    final array (hO); reading the six operations at the last one's result buffer leaves the quotient of the difference
    of the total sum and the margins' constant by the count's constant. -/
theorem tail_v24 (dats : (p : Fin 1) → (c : Dev nD) → Pipeline.Dat τ (Elt Ideal) Unit ℕ (UR sig nD τ) ℕ (cfgs p) c) (c : Dev nD)
    (O : S2x1x1.Idx → EReal) (hO : ((dats 0 c).arrAt 3 cfg0.N : S2x1x1.Idx → EReal) = O) :
    (Pipeline.afterTail₀ cfgs dats 0 (V0 m) [hostOps1] c main_v24 : S_.Idx → EReal)
      = fun _ => Ideal.div ((∑ p : Fin 2, O (ix3 p 0 0)) - marginsW) countW := by
  unfold Pipeline.afterTail₀
  show StableHlo.after hostOps1 _ (Proc.devRef .tc main_v24) = _
  after_results
  -- the region's exit contents at the output window's array
  have hA : Pipeline.withArrays (cfgs 0).spec c (V0 m c) (fun w => (dats 0 c).arrAt w (cfgs 0).N) (Proc.devRef .tc main_v21) = O :=
    (Pipeline.withArrays_arr spec0 launch0.win.arr_inj c _ _ 3).trans hO
  rw [hA]
  funext i
  -- the operations at the ideal values
  simp only [Host.divf, subf, Host.reduceAdd, constant, Ideal.hostReduceAdd_def, Ideal.hostDivf_def, Ideal.subf_def, Ideal.ofBits_def]
  -- the reduction over all axes: 0 plus the sum over every index, re-indexed by the first coordinate
  rw [Ideal.hostReduceAdd_total reducesTo_S2x1x1_S_d0_1_2 (fun b => b.elim0) O _ i, Ideal.ofBits_zero_f32, zero_add,
    sum_S2x1x1 O]
  rfl

end Cert.KernelIdeal.Tail

end
-- ==== Proof.KernelRun.lean ====
/-
  The kernel program's run read back as the loss formula.

  The output array holds the two halves' totals; the host then adds the two, takes 1024 margins off and divides by
  1024. A point's addend, written over the blocks the body found, is the loss formula's inner term: the target row of
  cosines the body finds is cosine b (t b) (the host's take of the target rows, normalised, against the normalised
  inputs), the resident inputs are the normalised inputs, and row r of the class block of point 25 p + i is class row
  (25 p + i) 2000 + r.
-/
import proofs.«427285_j83846351552676_3_alg».proof.Proof.Gen.KernelIdeal.Frame
import proofs.«427285_j83846351552676_3_alg».proof.Proof.OutArray
import proofs.«427285_j83846351552676_3_alg».proof.Proof.Blocks
import proofs.«427285_j83846351552676_3_alg».proof.Proof.HostPre
import proofs.«427285_j83846351552676_3_alg».proof.Proof.Tail

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Cert.Margin

variable (m : (ℓ : Loc nD τ sig) → Buf (Elt Ideal) ℓ)

/-- The addend of block i of half p at sample b, in the loss formula's terms. -/
theorem addend_eq (c : Dev nD) (hT : InRange (m ((c : Thread nD τ).loc main_arg2))) (p : Fin 2) (i : Fin 25) (b : Fin 1024) :
    Acc.addend m c (25 * p.val + i.val) b
      = ∑ r : Fin 2000, hinge (cosine (rows (m ((c : Thread nD τ).loc main_arg0))) (rows (m ((c : Thread nD τ).loc main_arg1))) b (tgt (m ((c : Thread nD τ).loc main_arg2)) b))
          (∑ d : Fin 512, normedK epsSqV (rows (m ((c : Thread nD τ).loc main_arg1))) (cls p i r) d * normed (rows (m ((c : Thread nD τ).loc main_arg0))) b d) := by
  have hN : cfg0.N = 50 := N_0
  have hlt : 25 * p.val + i.val < cfg0.N := by have := p.isLt; have := i.isLt; omega
  unfold Acc.addend
  rw [dif_pos hlt]
  refine Finset.sum_congr rfl fun r _ => ?_
  have ht : Acc.tblk m c ⟨25 * p.val + i.val, hlt⟩ (ix2 0 b)
      = cosine (rows (m ((c : Thread nD τ).loc main_arg0))) (rows (m ((c : Thread nD τ).loc main_arg1))) b (tgt (m ((c : Thread nD τ).loc main_arg2)) b) :=
    (Blocks.iblk2_apply m c ⟨25 * p.val + i.val, hlt⟩ b).trans (HostPre.V_v20_apply m c hT b)
  have hx : ∀ d : Fin 512, Acc.xblk m c ⟨25 * p.val + i.val, hlt⟩ (ix2 b d) = normed (rows (m ((c : Thread nD τ).loc main_arg0))) b d := fun d =>
    (Blocks.iblk0_apply m c ⟨25 * p.val + i.val, hlt⟩ b d).trans (HostPre.V_v8_apply m c b d)
  have hc : ∀ d : Fin 512, Acc.cblk m c ⟨25 * p.val + i.val, hlt⟩ (ix2 r d) = rows (m ((c : Thread nD τ).loc main_arg1)) (cls p i r) d := fun d =>
    (Blocks.iblk1_apply m c ⟨25 * p.val + i.val, hlt⟩ r d).trans rfl
  rw [ht]
  simp only [hx, hc]
  rfl

/-- The two totals, added, are the loss formula's fourfold sum. -/
theorem total_eq (c : Dev nD) (hT : InRange (m ((c : Thread nD τ).loc main_arg2))) :
    (∑ p : Fin 2, Out.outArr m c (ix3 p 0 0))
      = ∑ p : Fin 2, ∑ b : Fin 1024, ∑ i : Fin 25, ∑ r : Fin 2000,
          hinge (cosine (rows (m ((c : Thread nD τ).loc main_arg0))) (rows (m ((c : Thread nD τ).loc main_arg1))) b (tgt (m ((c : Thread nD τ).loc main_arg2)) b))
            (∑ d : Fin 512, normedK epsSqV (rows (m ((c : Thread nD τ).loc main_arg1))) (cls p i r) d * normed (rows (m ((c : Thread nD τ).loc main_arg0))) b d) := by
  refine Finset.sum_congr rfl fun p _ => ?_
  show Out.halfTotal m c p.val = _
  unfold Out.halfTotal
  refine Finset.sum_congr rfl fun b _ => ?_
  rw [zero_add, Finset.sum_range]
  exact Finset.sum_congr rfl fun i _ => addend_eq m c hT p i b

/-- The result buffer after the host's last operations is the kernel's loss. -/
theorem value (c : Dev nD) (hT : InRange (m ((c : Thread nD τ).loc main_arg2))) :
    (Pipeline.afterTail₀ cfgs (dats m) 0 (V0 m) [hostOps1] c main_v24 : S_.Idx → EReal)
      = fun _ => kerLoss epsSqV (rows (m ((c : Thread nD τ).loc main_arg0))) (rows (m ((c : Thread nD τ).loc main_arg1))) (tgt (m ((c : Thread nD τ).loc main_arg2))) := by
  rw [Tail.tail_v24 m (dats m) c (Out.outArr m c) (Out.out_final m c)]
  funext _
  unfold kerLoss
  rw [total_eq m c hT]

/-- Every weakly fair execution of the kernel program ends with its result at the kernel's loss and its arguments unchanged. -/
theorem run_loss (ρ : Dev nD → PrngReg) (hT : ∀ c : Dev nD, InRange (m ((c : Thread nD τ).loc main_arg2))) :
    θ_run defs (onTc (τ := τ) (main (F := Ideal))) ⟨m, fun _ => 0, ρ⟩ fun r => ∀ c : Dev nD,
      r.2.mem ((c.tc : Thread nD τ).loc main_v24)
          = (fun _ => kerLoss epsSqV (rows (m ((c.tc : Thread nD τ).loc main_arg0))) (rows (m ((c.tc : Thread nD τ).loc main_arg1))) (tgt (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v24 (Pipeline.mem_restRefs_of main_v24 (by decide) (by decide))).trans (value m c (hT c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.KernelIdeal.KerValue

end
-- ==== Proof.lean ====
/-
  The certificate: a margin loss over cosine similarities, computed by a blocked kernel and by a plain reference.

  Inputs: X (1024 rows of width 512), C (100000 class rows of width 512), and a target class per row of X. Both programs
  normalise rows by their clamped norms, take the cosine of every input row with every class row, apply the margin hinge
  against the target's cosine, sum over the classes, take the margin off once per sample and average. The reference does
  it in one pass over a 1024 x 100000 score array; the kernel walks the class table in 2 x 25 blocks of 2000 rows, keeps
  a running row of partial sums per half, and normalises a class row by the reciprocal square root of its sum of squares
  clamped at the square of the reference's clamp. Over the extended reals the two clamps agree on every row (the law
  x * rsqrt (max s (e*e)) = x / max (sqrt s) e holds for every s, finite or not), the blocked sums are a rearrangement of
  the reference's, and 1024 margins taken off at once are the margin taken off 1024 times. The target of every sample is
  assumed to name a class (0 ≤ t < 100000); outside that range the two programs read different rows.

  The three frames are the generated ones (the reference's is its generated run with the result dropped); the one
  ledger entry names the kernel's clamp constant as the exact square of the reference's clamp word.
-/
import proofs.«427285_j83846351552676_3_alg».proof.Defs
import proofs.«427285_j83846351552676_3_alg».proof.Proof.Gen.Kernel
import proofs.«427285_j83846351552676_3_alg».proof.Proof.Gen.Kernel.Frame
import proofs.«427285_j83846351552676_3_alg».proof.Proof.Gen.KernelIdeal
import proofs.«427285_j83846351552676_3_alg».proof.Proof.Gen.KernelIdeal.Frame
import proofs.«427285_j83846351552676_3_alg».proof.Proof.Gen.ReferenceIdeal
import proofs.«427285_j83846351552676_3_alg».proof.Proof.Gen.ReferenceIdeal.Run
import proofs.«427285_j83846351552676_3_alg».proof.Proof.Gen.Pre_finite_inputs
import proofs.«427285_j83846351552676_3_alg».proof.Proof.Spec
import proofs.«427285_j83846351552676_3_alg».proof.Proof.Algebra
import proofs.«427285_j83846351552676_3_alg».proof.Proof.PreRange
import proofs.«427285_j83846351552676_3_alg».proof.Proof.RefSide
import proofs.«427285_j83846351552676_3_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's clamp constant, by its name, is the square of the reference's clamp word. -/
theorem preserves : Cert.preserves_Kernel_KernelIdeal :=
  IdealRules.named_const.statement Cert.KernelIdeal.κ "eps_sq" .f32 0x24E69595#32
    ((126765058482001 / 1267650600228229401496703205376 : ℝ) : EReal) rfl

/-- Both programs end with the same loss: the kernel's formula equals the reference's on every input whose targets name classes. -/
theorem algebraic : Cert.algebraic_KernelIdeal_ReferenceIdeal := by
  intro m ρ m' ρ' hpre hagree
  have hT : ∀ c : Dev Cert.KernelIdeal.nD, Cert.Margin.InRange (m ((c.tc : Thread Cert.KernelIdeal.nD Cert.KernelIdeal.τ).loc Cert.KernelIdeal.main_arg2)) :=
    fun c => Cert.Margin.inRange_of_pre _ _ _ (hpre c)
  have hT' : ∀ c : Dev Cert.ReferenceIdeal.nD, Cert.Margin.InRange (m' ((c.tc : Thread Cert.ReferenceIdeal.nD Cert.ReferenceIdeal.τ).loc Cert.ReferenceIdeal.main_arg2)) :=
    fun c => by rw [(hagree c).2.2]; exact hT c
  refine ⟨_, Cert.KernelIdeal.KerValue.run_loss m ρ hT, ?_⟩
  refine (θ_run Cert.ReferenceIdeal.defs _ _).mono (fun _ h c => ⟨(h c).1.trans ?_, (h c).2⟩)
    (Cert.ReferenceIdeal.RefValue.run_loss m' ρ' hT')
  rw [(hagree c).1, (hagree c).2.1, (hagree c).2.2]
  funext _
  exact (Cert.Margin.kerLoss_eq_refLoss _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
